-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64 : Shape := ⟨3, ![8, 256, 64]⟩
abbrev S256x256x128 : Shape := ⟨3, ![256, 256, 128]⟩
abbrev S256x4x3 : Shape := ⟨3, ![256, 4, 3]⟩
abbrev S17x128 : Shape := ⟨2, ![17, 128]⟩
abbrev S1x128 : Shape := ⟨2, ![1, 128]⟩
abbrev S1x64 : Shape := ⟨2, ![1, 64]⟩
abbrev S_ : Shape := ⟨0, ![]⟩

class Facts : Prop where
  bcast_S_S8x256x64 : S_.BroadcastsInDim S8x256x64 (![] : Fin 0 → Fin S8x256x64.rank)
  reducesTo_S8x256x64_S_d0_1_2 : S8x256x64.ReducesTo [0, 1, 2] S_
  h_S_ : 0 < S_.numel
  bcast_S_S256x256x128 : S_.BroadcastsInDim S256x256x128 (![] : Fin 0 → Fin S256x256x128.rank)
  reducesTo_S256x256x128_S_d0_1_2 : S256x256x128.ReducesTo [0, 1, 2] S_
  bcast_S_S256x4x3 : S_.BroadcastsInDim S256x4x3 (![] : Fin 0 → Fin S256x4x3.rank)
  reducesTo_S256x4x3_S_d0_1_2 : S256x4x3.ReducesTo [0, 1, 2] S_
  bcast_S_S17x128 : S_.BroadcastsInDim S17x128 (![] : Fin 0 → Fin S17x128.rank)
  reducesTo_S17x128_S_d0_1 : S17x128.ReducesTo [0, 1] S_
  bcast_S_S1x128 : S_.BroadcastsInDim S1x128 (![] : Fin 0 → Fin S1x128.rank)
  reducesTo_S1x128_S_d0_1 : S1x128.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_arg8 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  main_v43

def fn_part1 {F : FTy → Type} [FloatOps F] (main_arg4 : FVec F S1x128 .f32) (main_arg5 : FVec F S1x128 .f32) (main_arg6 : FVec F S1x128 .f32) (main_arg7 : FVec F S1x64 .f32) (main_arg8 : FVec F S1x64 .f32) (main_v13 : IVec S_ 1) (main_v16 : IVec S17x128 1) : IVec S_ 1 :=
  let main_c_5 : IVec S_ 1 := constantI S_ 1 1#1
  let main_v17 : IVec S_ 1 := (fun x v => Host.reduce IntOp.andi x v reducesTo_S17x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  fn_part2 (F := F) main_arg7 main_arg8 main_v33

def fn {F : FTy → Type} [FloatOps F] (main_arg0 : FVec F S8x256x64 .f32) (main_arg1 : FVec F S256x256x128 .f32) (main_arg2 : FVec F S256x4x3 .f32) (main_arg3 : FVec F S17x128 .f32) (main_arg4 : FVec F S1x128 .f32) (main_arg5 : FVec F S1x128 .f32) (main_arg6 : FVec F S1x128 .f32) (main_arg7 : FVec F S1x64 .f32) (main_arg8 : FVec F S1x64 .f32) : IVec S_ 1 :=
  let main_v0 : FVec F S8x256x64 .f32 := Host.absf main_arg0
  let main_cst : FVec F S_ .f32 := constant S_ .f32 0x7F800000#32
  let main_v1 : FVec F S8x256x64 .f32 := broadcastInDim S8x256x64 ![] bcast_S_S8x256x64 main_cst
  let main_v2 : IVec S8x256x64 1 := cmpf .olt main_v0 main_v1
  let main_c : IVec S_ 1 := constantI S_ 1 1#1
  let main_v3 : IVec S_ 1 := (fun x v => Host.reduce IntOp.andi x v reducesTo_S8x256x64_S_d0_1_2 h_S_) main_v2 main_c
  let main_v4 : FVec F S256x256x128 .f32 := Host.absf main_arg1
  let main_cst_0 : FVec F S_ .f32 := constant S_ .f32 0x7F800000#32
  let main_v5 : FVec F S256x256x128 .f32 := broadcastInDim S256x256x128 ![] bcast_S_S256x256x128 main_cst_0
  let main_v6 : IVec S256x256x128 1 := cmpf .olt main_v4 main_v5
  let main_c_1 : IVec S_ 1 := constantI S_ 1 1#1
  let main_v7 : IVec S_ 1 := (fun x v => Host.reduce IntOp.andi x v reducesTo_S256x256x128_S_d0_1_2 h_S_) main_v6 main_c_1
  let main_v8 : IVec S_ 1 := andi main_v3 main_v7
  let main_v9 : FVec F S256x4x3 .f32 := Host.absf main_arg2
  let main_cst_2 : FVec F S_ .f32 := constant S_ .f32 0x7F800000#32
  let main_v10 : FVec F S256x4x3 .f32 := broadcastInDim S256x4x3 ![] bcast_S_S256x4x3 main_cst_2
  let main_v11 : IVec S256x4x3 1 := cmpf .olt main_v9 main_v10
  let main_c_3 : IVec S_ 1 := constantI S_ 1 1#1
  let main_v12 : IVec S_ 1 := (fun x v => Host.reduce IntOp.andi x v reducesTo_S256x4x3_S_d0_1_2 h_S_) main_v11 main_c_3
  let main_v13 : IVec S_ 1 := andi main_v8 main_v12
  let main_v14 : FVec F S17x128 .f32 := Host.absf main_arg3
  let main_cst_4 : FVec F S_ .f32 := constant S_ .f32 0x7F800000#32
  let main_v15 : FVec F S17x128 .f32 := broadcastInDim S17x128 ![] bcast_S_S17x128 main_cst_4
  let main_v16 : IVec S17x128 1 := cmpf .olt main_v14 main_v15
  fn_part1 (F := F) main_arg4 main_arg5 main_arg6 main_arg7 main_arg8 main_v13 main_v16
-- ==== Kernel.lean ====
abbrev S8x256x64 : Shape := ⟨3, ![8, 256, 64]⟩
abbrev S256x256x128 : Shape := ⟨3, ![256, 256, 128]⟩
abbrev S256x4x3 : Shape := ⟨3, ![256, 4, 3]⟩
abbrev S17x128 : Shape := ⟨2, ![17, 128]⟩
abbrev S1x128 : Shape := ⟨2, ![1, 128]⟩
abbrev S1x64 : Shape := ⟨2, ![1, 64]⟩
abbrev S256x1x3 : Shape := ⟨3, ![256, 1, 3]⟩
abbrev S256x3 : Shape := ⟨2, ![256, 3]⟩
abbrev S3x256 : Shape := ⟨2, ![3, 256]⟩
abbrev S2048x64 : Shape := ⟨2, ![2048, 64]⟩
abbrev S16x3 : Shape := ⟨2, ![16, 3]⟩
abbrev S128x64 : Shape := ⟨2, ![128, 64]⟩
abbrev S16x256x128 : Shape := ⟨3, ![16, 256, 128]⟩
abbrev S16x1 : Shape := ⟨2, ![16, 1]⟩
abbrev S1x256 : Shape := ⟨2, ![1, 256]⟩
abbrev S16x256 : Shape := ⟨2, ![16, 256]⟩
abbrev S1x1x8 : Shape := ⟨3, ![1, 1, 8]⟩
abbrev S16x256x1 : Shape := ⟨3, ![16, 256, 1]⟩
abbrev S16x256x8 : Shape := ⟨3, ![16, 256, 8]⟩
abbrev S4096x8 : Shape := ⟨2, ![4096, 8]⟩
abbrev S4096x1 : Shape := ⟨2, ![4096, 1]⟩
abbrev S4096x17 : Shape := ⟨2, ![4096, 17]⟩
abbrev S4096x128 : Shape := ⟨2, ![4096, 128]⟩
abbrev S1x1x128 : Shape := ⟨3, ![1, 1, 128]⟩
abbrev S128 : Shape := ⟨1, ![128]⟩
abbrev S128x1 : Shape := ⟨2, ![128, 1]⟩

abbrev nBuf : Space → Nat
  | .hbm => 16
  | .vmem => 17
  | .smem => 0
  | _ => 0

abbrev bufTy : (tb : Table) → Fin (tcTables nBuf tb) → BufTy
  | .hbm, ⟨0, _⟩ => ⟨S8x256x64, .f32⟩
  | .hbm, ⟨1, _⟩ => ⟨S256x256x128, .f32⟩
  | .hbm, ⟨2, _⟩ => ⟨S256x4x3, .f32⟩
  | .hbm, ⟨3, _⟩ => ⟨S17x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S256x1x3, .f32⟩
  | .hbm, ⟨10, _⟩ => ⟨S256x3, .f32⟩
  | .hbm, ⟨11, _⟩ => ⟨S3x256, .f32⟩
  | .hbm, ⟨12, _⟩ => ⟨S2048x64, .f32⟩
  | .hbm, ⟨13, _⟩ => ⟨S2048x64, .f32⟩
  | .hbm, ⟨14, _⟩ => ⟨S256x256x128, .f32⟩
  | .hbm, ⟨15, _⟩ => ⟨S8x256x64, .f32⟩
  | .local _ .vmem, ⟨0, _⟩ => ⟨S16x3, .f32⟩
  | .local _ .vmem, ⟨1, _⟩ => ⟨S16x3, .f32⟩
  | .local _ .vmem, ⟨2, _⟩ => ⟨S3x256, .f32⟩
  | .local _ .vmem, ⟨3, _⟩ => ⟨S17x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x64, .f32⟩
  | .local _ .vmem, ⟨8, _⟩ => ⟨S1x64, .f32⟩
  | .local _ .vmem, ⟨9, _⟩ => ⟨S128x64, .f32⟩
  | .local _ .vmem, ⟨10, _⟩ => ⟨S128x64, .f32⟩
  | .local _ .vmem, ⟨11, _⟩ => ⟨S16x256x128, .f32⟩
  | .local _ .vmem, ⟨12, _⟩ => ⟨S16x256x128, .f32⟩
  | .local _ .vmem, ⟨13, _⟩ => ⟨S128x64, .f32⟩
  | .local _ .vmem, ⟨14, _⟩ => ⟨S128x64, .f32⟩
  | .local _ .vmem, ⟨15, _⟩ => ⟨S16x256x128, .f32⟩
  | .local _ .vmem, ⟨16, _⟩ => ⟨S16x256x128, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S17x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S256x4x3_S256x1x3_0_3_0 : S256x4x3.Slices ![0, 3, 0] S256x1x3
  shapeCasts_S256x1x3_S256x3 : S256x1x3.ShapeCasts S256x3
  transposes_S256x3_S3x256_1_0 : S256x3.Transposes [1, 0] S3x256
  shapeCasts_S8x256x64_S2048x64 : S8x256x64.ShapeCasts S2048x64
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S16x3_o0_0_S16x1 : S16x3.Slices ![0, 0] S16x1
  slices_S3x256_o0_0_S1x256 : S3x256.Slices ![0, 0] S1x256
  broadcasts_S16x1_S16x256 : S16x1.Broadcasts S16x256
  broadcasts_S1x256_S16x256 : S1x256.Broadcasts S16x256
  slices_S16x3_o0_1_S16x1 : S16x3.Slices ![0, 1] S16x1
  slices_S3x256_o1_0_S1x256 : S3x256.Slices ![1, 0] S1x256
  slices_S16x3_o0_2_S16x1 : S16x3.Slices ![0, 2] S16x1
  slices_S3x256_o2_0_S1x256 : S3x256.Slices ![2, 0] S1x256
  iota_S1x1x8_d2_w32 : S1x1x8.Iotas .tc 32 [2]
  shapeCasts_S16x256_S16x256x1 : S16x256.ShapeCasts S16x256x1
  broadcasts_S16x256x1_S16x256x8 : S16x256x1.Broadcasts S16x256x8
  broadcasts_S1x1x8_S16x256x8 : S1x1x8.Broadcasts S16x256x8
  shapeCasts_S16x256x8_S4096x8 : S16x256x8.ShapeCasts S4096x8
  slices_S4096x8_o0_0_S4096x1 : S4096x8.Slices ![0, 0] S4096x1
  concatenates_S4096x8_S4096x8_S4096x1_S4096x17_d1 : Shape.Concatenates [S4096x8, S4096x8, S4096x1] S4096x17 1
  inb_S17x128_S17x128_0_0 : ∀ a, (![0, 0] : Fin 2 → Nat) a + S17x128.size a ≤ S17x128.size a
  h_S17x128 : 0 < S17x128.numel
  shapeCasts_S4096x128_S16x256x128 : S4096x128.ShapeCasts S16x256x128
  inb_S1x128_S1x128_0_0 : ∀ a, (![0, 0] : Fin 2 → Nat) a + S1x128.size a ≤ S1x128.size a
  h_S1x128 : 0 < S1x128.numel
  shapeCasts_S1x128_S1x1x128 : S1x128.ShapeCasts S1x1x128
  broadcasts_S1x1x128_S16x256x128 : S1x1x128.Broadcasts S16x256x128
  inb_S16x256x128_S16x256x128_0_0_0 : ∀ a, (![0, 0, 0] : Fin 3 → Nat) a + S16x256x128.size a ≤ S16x256x128.size a
  h_S16x256x128 : 0 < S16x256x128.numel
  reduces_S16x256x128_S16x256 : S16x256x128.Reduces [2] S16x256
  broadcasts_S16x256x1_S16x256x128 : S16x256x1.Broadcasts S16x256x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  reduces_S128x64_S128 : S128x64.Reduces [1] S128
  shapeCasts_S128_S128x1 : S128.ShapeCasts S128x1
  broadcasts_S128x1_S128x64 : S128x1.Broadcasts S128x64
  inb_S1x64_S1x64_0_0 : ∀ a, (![0, 0] : Fin 2 → Nat) a + S1x64.size a ≤ S1x64.size a
  h_S1x64 : 0 < S1x64.numel
  broadcasts_S1x64_S128x64 : S1x64.Broadcasts S128x64
  shapeCasts_S2048x64_S8x256x64 : S2048x64.ShapeCasts S8x256x64
  dot_S4096x17_S17x128_S4096x128_1_0_0_1_n_n_wf : DotDims.WF S4096x17 S17x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3.size a ≤ S256x3.size a
  hwx0_0 : ∀ i : grid0.Coords, EltTy.bits .f32 = 32 ∨ (Rect.block (s := S256x3) S16x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S17x128.size a ≤ S17x128.size a
  hwx0_2 : ∀ i : grid0.Coords, EltTy.bits .f32 = 32 ∨ (Rect.block (s := S17x128) S17x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x64.size a ≤ S2048x64.size a
  hwx0_8 : ∀ i : grid0.Coords, EltTy.bits .f32 = 32 ∨ (Rect.block (s := S2048x64) S128x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x256x128.size a ≤ S256x256x128.size a
  hwx0_9 : ∀ i : grid0.Coords, EltTy.bits .f32 = 32 ∨ (Rect.block (s := S256x256x128) S16x256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S2048x64.size a
  hwx0_10 : ∀ i : grid0.Coords, EltTy.bits .f32 = 32 ∨ (Rect.block (s := S2048x64) S128x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x256x128.size a ≤ S256x256x128.size a
  hwx0_11 : ∀ i : grid0.Coords, EltTy.bits .f32 = 32 ∨ (Rect.block (s := S256x256x128) S16x256x128.size (cc0_transform_11 i) (hinb0_11 i)).WholeWords (EltTy.packing .f32)

variable [Facts₀]

def dot_S4096x17_S17x128_S4096x128_1_0_0_1_n_n : DotDims S4096x17 S17x128 S4096x128 where
  lhsContracting := [1]
  rhsContracting := [0]
  lhsNonContracting := [0]
  rhsNonContracting := [1]
  lhsBatch := []
  rhsBatch := []
  wf := dot_S4096x17_S17x128_S4096x128_1_0_0_1_n_n_wf

abbrev win0_0 : Pipeline.Window sig grid0 :=
  Pipeline.Window.ofSpec (Memref.whole main_v1) S16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S17x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S128x64.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S16x256x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S128x64.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S16x256x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8x256x64 : Shape := ⟨3, ![8, 256, 64]⟩
abbrev S256x256x128 : Shape := ⟨3, ![256, 256, 128]⟩
abbrev S256x4x3 : Shape := ⟨3, ![256, 4, 3]⟩
abbrev S17x128 : Shape := ⟨2, ![17, 128]⟩
abbrev S1x128 : Shape := ⟨2, ![1, 128]⟩
abbrev S1x64 : Shape := ⟨2, ![1, 64]⟩
abbrev S1x8 : Shape := ⟨2, ![1, 8]⟩
abbrev S256x1x3 : Shape := ⟨3, ![256, 1, 3]⟩
abbrev S256x3 : Shape := ⟨2, ![256, 3]⟩
abbrev S3x256 : Shape := ⟨2, ![3, 256]⟩
abbrev S8x128 : Shape := ⟨2, ![8, 128]⟩
abbrev S16x3 : Shape := ⟨2, ![16, 3]⟩
abbrev S16x256x128 : Shape := ⟨3, ![16, 256, 128]⟩
abbrev S16x1 : Shape := ⟨2, ![16, 1]⟩
abbrev S1x256 : Shape := ⟨2, ![1, 256]⟩
abbrev S16x256 : Shape := ⟨2, ![16, 256]⟩
abbrev S16x256x1 : Shape := ⟨3, ![16, 256, 1]⟩
abbrev S1x1x8 : Shape := ⟨3, ![1, 1, 8]⟩
abbrev S16x256x8 : Shape := ⟨3, ![16, 256, 8]⟩
abbrev S4096x8 : Shape := ⟨2, ![4096, 8]⟩
abbrev S4096x128 : Shape := ⟨2, ![4096, 128]⟩
abbrev S1x1x128 : Shape := ⟨3, ![1, 1, 128]⟩
abbrev S2048x64 : Shape := ⟨2, ![2048, 64]⟩
abbrev S1024x64 : Shape := ⟨2, ![1024, 64]⟩
abbrev S1024 : Shape := ⟨1, ![1024]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S8x256x64, .f32⟩
  | .hbm, ⟨1, _⟩ => ⟨S256x256x128, .f32⟩
  | .hbm, ⟨2, _⟩ => ⟨S256x4x3, .f32⟩
  | .hbm, ⟨3, _⟩ => ⟨S17x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x64, .f32⟩
  | .hbm, ⟨8, _⟩ => ⟨S1x64, .f32⟩
  | .hbm, ⟨9, _⟩ => ⟨S1x8, .f32⟩
  | .hbm, ⟨10, _⟩ => ⟨S256x1x3, .f32⟩
  | .hbm, ⟨11, _⟩ => ⟨S256x3, .f32⟩
  | .hbm, ⟨12, _⟩ => ⟨S3x256, .f32⟩
  | .hbm, ⟨13, _⟩ => ⟨S8x128, .f32⟩
  | .hbm, ⟨14, _⟩ => ⟨S8x128, .f32⟩
  | .hbm, ⟨15, _⟩ => ⟨S1x128, .f32⟩
  | .hbm, ⟨16, _⟩ => ⟨S256x256x128, .f32⟩
  | .hbm, ⟨17, _⟩ => ⟨S2048x64, .f32⟩
  | .hbm, ⟨18, _⟩ => ⟨S2048x64, .f32⟩
  | .hbm, ⟨19, _⟩ => ⟨S8x256x64, .f32⟩
  | .local _ .vmem, ⟨0, _⟩ => ⟨S16x3, .f32⟩
  | .local _ .vmem, ⟨1, _⟩ => ⟨S16x3, .f32⟩
  | .local _ .vmem, ⟨2, _⟩ => ⟨S3x256, .f32⟩
  | .local _ .vmem, ⟨3, _⟩ => ⟨S8x128, .f32⟩
  | .local _ .vmem, ⟨4, _⟩ => ⟨S8x128, .f32⟩
  | .local _ .vmem, ⟨5, _⟩ => ⟨S1x128, .f32⟩
  | .local _ .vmem, ⟨6, _⟩ => ⟨S1x128, .f32⟩
  | .local _ .vmem, ⟨7, _⟩ => ⟨S1x8, .f32⟩
  | .local _ .vmem, ⟨8, _⟩ => ⟨S1x128, .f32⟩
  | .local _ .vmem, ⟨9, _⟩ => ⟨S1x128, .f32⟩
  | .local _ .vmem, ⟨10, _⟩ => ⟨S16x256x128, .f32⟩
  | .local _ .vmem, ⟨11, _⟩ => ⟨S16x256x128, .f32⟩
  | .local _ .vmem, ⟨12, _⟩ => ⟨S16x256x128, .f32⟩
  | .local _ .vmem, ⟨13, _⟩ => ⟨S16x256x128, .f32⟩
  | .local _ .vmem, ⟨14, _⟩ => ⟨S1024x64, .f32⟩
  | .local _ .vmem, ⟨15, _⟩ => ⟨S1024x64, .f32⟩
  | .local _ .vmem, ⟨16, _⟩ => ⟨S1x64, .f32⟩
  | .local _ .vmem, ⟨17, _⟩ => ⟨S1x64, .f32⟩
  | .local _ .vmem, ⟨18, _⟩ => ⟨S1024x64, .f32⟩
  | .local _ .vmem, ⟨19, _⟩ => ⟨S1024x64, .f32⟩
  | _, _ => ⟨S8x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S16x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S16x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S16x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S256x4x3_S256x1x3_0_3_0 : S256x4x3.Slices ![0, 3, 0] S256x1x3
  shapeCasts_S256x1x3_S256x3 : S256x1x3.ShapeCasts S256x3
  transposes_S256x3_S3x256_1_0 : S256x3.Transposes [1, 0] S3x256
  slices_S17x128_S8x128_0_0 : S17x128.Slices ![0, 0] S8x128
  slices_S17x128_S8x128_8_0 : S17x128.Slices ![8, 0] S8x128
  slices_S17x128_S1x128_16_0 : S17x128.Slices ![16, 0] S1x128
  inb_S16x3_S16x3_0_0 : ∀ a, (![0, 0] : Fin 2 → Nat) a + S16x3.size a ≤ S16x3.size a
  h_S16x3 : 0 < S16x3.numel
  shapeCasts_S16x3_S16x3 : S16x3.ShapeCasts S16x3
  inb_S3x256_S3x256_0_0 : ∀ a, (![0, 0] : Fin 2 → Nat) a + S3x256.size a ≤ S3x256.size a
  h_S3x256 : 0 < S3x256.numel
  shapeCasts_S3x256_S3x256 : S3x256.ShapeCasts S3x256
  slices_S16x3_o0_0_S16x1 : S16x3.Slices ![0, 0] S16x1
  slices_S3x256_o0_0_S1x256 : S3x256.Slices ![0, 0] S1x256
  broadcasts_S16x1_S16x256 : S16x1.Broadcasts S16x256
  broadcasts_S1x256_S16x256 : S1x256.Broadcasts S16x256
  slices_S16x3_o0_1_S16x1 : S16x3.Slices ![0, 1] S16x1
  slices_S3x256_o1_0_S1x256 : S3x256.Slices ![1, 0] S1x256
  slices_S16x3_o0_2_S16x1 : S16x3.Slices ![0, 2] S16x1
  slices_S3x256_o2_0_S1x256 : S3x256.Slices ![2, 0] S1x256
  shapeCasts_S16x256_S16x256x1 : S16x256.ShapeCasts S16x256x1
  inb_S1x8_S1x8_0_0 : ∀ a, (![0, 0] : Fin 2 → Nat) a + S1x8.size a ≤ S1x8.size a
  h_S1x8 : 0 < S1x8.numel
  shapeCasts_S1x8_S1x1x8 : S1x8.ShapeCasts S1x1x8
  broadcasts_S16x256x1_S16x256x8 : S16x256x1.Broadcasts S16x256x8
  broadcasts_S1x1x8_S16x256x8 : S1x1x8.Broadcasts S16x256x8
  shapeCasts_S16x256x8_S4096x8 : S16x256x8.ShapeCasts S4096x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S4096x128_S16x256x128 : S4096x128.ShapeCasts S16x256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S16x256x1_S16x256x128 : S16x256x1.Broadcasts S16x256x128
  broadcasts_S1x1x128_S16x256x128 : S1x1x128.Broadcasts S16x256x128
  inb_S16x256x128_S16x256x128_0_0_0 : ∀ a, (![0, 0, 0] : Fin 3 → Nat) a + S16x256x128.size a ≤ S16x256x128.size a
  h_S16x256x128 : 0 < S16x256x128.numel
  reduces_S16x256x128_S16x256 : S16x256x128.Reduces [2] S16x256
  shapeCasts_S8x256x64_S2048x64 : S8x256x64.ShapeCasts S2048x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  broadcasts_S1024x1_S1024x64 : S1024x1.Broadcasts S1024x64
  inb_S1x64_S1x64_0_0 : ∀ a, (![0, 0] : Fin 2 → Nat) a + S1x64.size a ≤ S1x64.size a
  h_S1x64 : 0 < S1x64.numel
  broadcasts_S1x64_S1024x64 : S1x64.Broadcasts S1024x64
  shapeCasts_S2048x64_S8x256x64 : S2048x64.ShapeCasts S8x256x64
  dot_S4096x8_S8x128_S4096x128_1_0_0_1_n_n_wf : DotDims.WF S4096x8 S8x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3.size a ≤ S256x3.size a
  hwx0_0 : ∀ i : grid0.Coords, EltTy.bits .f32 = 32 ∨ (Rect.block (s := S256x3) S16x3.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S3x256.size a ≤ S3x256.size a
  hwx0_1 : ∀ i : grid0.Coords, EltTy.bits .f32 = 32 ∨ (Rect.block (s := S3x256) S3x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x256x128.size a ≤ S256x256x128.size a
  hwx0_9 : ∀ i : grid0.Coords, EltTy.bits .f32 = 32 ∨ (Rect.block (s := S256x256x128) S16x256x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x256x128.size a ≤ S256x256x128.size a
  hwx0_10 : ∀ i : grid0.Coords, EltTy.bits .f32 = 32 ∨ (Rect.block (s := S256x256x128) S16x256x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S2048x64.size a
  hwx1_0 : ∀ i : grid1.Coords, EltTy.bits .f32 = 32 ∨ (Rect.block (s := S2048x64) S1024x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S2048x64.size a
  hwx1_3 : ∀ i : grid1.Coords, EltTy.bits .f32 = 32 ∨ (Rect.block (s := S2048x64) S1024x64.size (cc1_transform_3 i) (hinb1_3 i)).WholeWords (EltTy.packing .f32)

variable [Facts₀]

def dot_S4096x8_S8x128_S4096x128_1_0_0_1_n_n : DotDims S4096x8 S8x128 S4096x128 where
  lhsContracting := [1]
  rhsContracting := [0]
  lhsNonContracting := [0]
  rhsNonContracting := [1]
  lhsBatch := []
  rhsBatch := []
  wf := dot_S4096x8_S8x128_S4096x128_1_0_0_1_n_n_wf

abbrev win0_0 : Pipeline.Window sig grid0 :=
  Pipeline.Window.ofSpec (Memref.whole main_v1) S16x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S3x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S8x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_cst) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S16x256x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6) S16x256x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v7) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== Proof.Spec.lean ====
/-
  What both programs compute, element by element, over the extended reals.

  The operator takes a pair representation z[i, j, :] (128 channels per residue pair), an alignment
  representation m[s, r, :] (64 channels) and atom coordinates x[i, a, :]; it returns
    * LayerNorm over the channel axis of every row of m, with gain gm and bias bm, and
    * LayerNorm over the channel axis of every row of z, with gain gz and bias bz, plus a linear map
      (17 × 128 weights w, bias b) of the Fourier features of the distance d(i, j) between the last atoms of
      residues i and j: sin (d · 2⁻ᵏ), cos (d · 2⁻ᵏ) for k < 8, and d itself.
  One program forms all 17 features and takes ONE product with w, computing 2⁻ᵏ as exp2 (0 − k); the other
  takes the sine block against rows 0..7 of w, the cosine block against rows 8..15, adds d times row 16, and
  reads 2⁻ᵏ from a table of eight binary fractions.  `lnorm`, `dist`, `projOne` and `projSplit` name those
  pieces; `zOne` / `zSplit` are an entry of the z result in either form.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The variance offset both programs add before the reciprocal square root (the f32 nearest 1e-5). -/
abbrev eps : EReal := Ideal.ofBits .f32 0x3727C5AC#32
/-- 64, the channel count of m. -/
abbrev n64 : EReal := Ideal.ofBits .f32 0x42800000#32
/-- 128, the channel count of z. -/
abbrev n128 : EReal := Ideal.ofBits .f32 0x43000000#32

/-- Entry `c` of the LayerNorm of one row of `n` channels: with mean μ = (∑ row) / N and variance
    σ² = (∑ (row − μ)²) / N, it is ((row c − μ) · (σ² + eps)^(-1/2)) · g + b. -/
def lnorm {n : ℕ} (N : EReal) (row : Fin n → EReal) (g b : EReal) (c : Fin n) : EReal :=
  ((row c - Ideal.div (∑ k, row k) N)
      * Ideal.rsqrt (Ideal.div (∑ k, (row k - Ideal.div (∑ k', row k') N) * (row k - Ideal.div (∑ k', row k') N)) N + eps))
    * g + b

/-- The distance between the points (a0, a1, a2) and (b0, b1, b2). -/
def dist (a0 a1 a2 b0 b1 b2 : EReal) : EReal :=
  Ideal.sqrt (((a0 - b0) * (a0 - b0) + (a1 - b1) * (a1 - b1)) + (a2 - b2) * (a2 - b2))

/-- 2⁻ᵏ as one program computes it: exp2 of zero minus the (signed) integer k of a 32-bit counter. -/
def pow2neg (k : Fin 8) : EReal :=
  Ideal.exp2 (Ideal.ofBits .f32 0x00000000#32 - (((BitVec.ofNat 32 k.val).toInt : ℝ) : EReal))

/-- 2⁻ᵏ as the other program reads it: a table of the eight binary fractions 1, 1/2, …, 1/128. -/
def pow2negTable : Fin 8 → BitVec 32 := fun
  | 0 => 0x3F800000#32 | 1 => 0x3F000000#32 | 2 => 0x3E800000#32 | 3 => 0x3E000000#32
  | 4 => 0x3D800000#32 | 5 => 0x3D000000#32 | 6 => 0x3C800000#32 | 7 => 0x3C000000#32

/-- Feature `k` of 17 of a distance `d` under scales `e`: sines, then cosines, then `d` at scale `e 0`. -/
def feat (d : EReal) (e : Fin 8 → EReal) (k : Fin 17) : EReal :=
  if h : k.val < 8 then Ideal.sin (d * e ⟨k.val, h⟩)
  else if h2 : k.val < 16 then Ideal.cos (d * e ⟨k.val - 8, by omega⟩)
  else d * e 0

/-- The projection as ONE product of the 17 features with a column `w` of the weights, plus the bias. -/
def projOne (d : EReal) (e : Fin 8 → EReal) (w : Fin 17 → EReal) (bias : EReal) : EReal :=
  (∑ k : Fin 17, feat d e k * w k) + bias

/-- The projection in three parts: sines against `ws`, cosines against `wc`, `d` against `wself`, plus the bias. -/
def projSplit (d : EReal) (e : Fin 8 → EReal) (ws wc : Fin 8 → EReal) (wself bias : EReal) : EReal :=
  (((∑ k : Fin 8, Ideal.sin (d * e k) * ws k) + (∑ k : Fin 8, Ideal.cos (d * e k) * wc k)) + d * wself) + bias

/-- An entry of the z result in the one-product form: LayerNorm of the pair's row plus the projection. -/
def zOne (a0 a1 a2 b0 b1 b2 : EReal) (w : Fin 17 → EReal) (bias g bt : EReal) (row : Fin 128 → EReal) (c : Fin 128) : EReal :=
  lnorm n128 row g bt c + projOne (dist a0 a1 a2 b0 b1 b2) pow2neg w bias

/-- The same entry in the three-part form, the scales read from a table `e`. -/
def zSplit (a0 a1 a2 b0 b1 b2 : EReal) (e ws wc : Fin 8 → EReal) (wself bias g bt : EReal) (row : Fin 128 → EReal) (c : Fin 128) : EReal :=
  lnorm n128 row g bt c + projSplit (dist a0 a1 a2 b0 b1 b2) e ws wc wself bias

end Cert.Spec

end
-- ==== Proof.SpecArrays.lean ====
/-
  The two results as whole arrays of the operator's arguments: LayerNorm of every row of m, and for every residue pair the
  LayerNorm of its row of z plus the projected distance features of the last atoms (atom index 3) of the two residues.
-/
import proofs.«126780_g2000505677692961_pallasbulk_1150_4_alg».proof.Proof.Spec

noncomputable section

namespace Cert.Spec

open Idealize.ShloMosaic Idealize.ShloMosaic.ValueIdx

/-- The m result: entry (s, r, c) is the LayerNorm of the 64 channels of row (s, r) of m, at c. -/
def mResult (m : (⟨3, ![8, 256, 64]⟩ : Shape).Idx → EReal) (gm bm : (⟨2, ![1, 64]⟩ : Shape).Idx → EReal) :
    (⟨3, ![8, 256, 64]⟩ : Shape).Idx → EReal := fun i =>
  lnorm n64 (fun k => m (ix3 (i 0) (i 1) k)) (gm (ix2 0 (i 2))) (bm (ix2 0 (i 2))) (i 2)

/-- The z result: entry (i, j, c) is the LayerNorm of the 128 channels of row (i, j) of z, at c, plus the one-product
    projection of the features of the distance between atom 3 of residue i and atom 3 of residue j onto column c of w. -/
def zResult (x : (⟨3, ![256, 4, 3]⟩ : Shape).Idx → EReal) (w : (⟨2, ![17, 128]⟩ : Shape).Idx → EReal)
    (b gz bz : (⟨2, ![1, 128]⟩ : Shape).Idx → EReal) (z : (⟨3, ![256, 256, 128]⟩ : Shape).Idx → EReal) :
    (⟨3, ![256, 256, 128]⟩ : Shape).Idx → EReal := fun i =>
  zOne (x (ix3 (i 0) 3 0)) (x (ix3 (i 0) 3 1)) (x (ix3 (i 0) 3 2)) (x (ix3 (i 1) 3 0)) (x (ix3 (i 1) 3 1)) (x (ix3 (i 1) 3 2))
    (fun k => w (ix2 k (i 2))) (b (ix2 0 (i 2))) (gz (ix2 0 (i 2))) (bz (ix2 0 (i 2))) (fun k => z (ix3 (i 0) (i 1) k)) (i 2)

end Cert.Spec

end
-- ==== Proof.KernelM.lean ====
/-
  The m-output block of the fused kernel, read at block coordinates (r, c): the LayerNorm over the 64 channels of row r of
  the loaded 128-row block, with gain and bias.  Every layout operation of the body is read at coordinates.
-/
import proofs.«126780_g2000505677692961_pallasbulk_1150_4_alg».proof.Proof.Gen.KernelIdeal.Skeleton
import proofs.«126780_g2000505677692961_pallasbulk_1150_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.PayM
open Cert.KernelIdeal Cert.KernelIdeal.Gen

/-! ## Layout operations of a row-wise normalisation, read at an index

Stated for any row count `n` and channel count `m`: the one-axis sum over the channels, the cast that keeps the
summed axis as a unit axis, and the broadcast of a column `[n, 1]` across the channels. -/

section Layout
variable {α : Type}

/-- The cast `[n] → [n, 1]` read at `(r, 0)` is the operand at `r`: both have row-major position `r`. -/
theorem shapeCast_a_a1_apply {n : ℕ} (v : (⟨1, ![n]⟩ : Shape).Idx → α)
    (h : (⟨1, ![n]⟩ : Shape).ShapeCasts ⟨2, ![n, 1]⟩) (r : Fin n) :
    shapeCast ⟨2, ![n, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column `[n, 1]` broadcast to `[n, m]` reads, at `(r, c)`, the column's entry of row `r`. -/
theorem broadcastTo_a1_ab_apply {n m : ℕ} (v : (⟨2, ![n, 1]⟩ : Shape).Idx → α)
    (h : (⟨2, ![n, 1]⟩ : Shape).Broadcasts ⟨2, ![n, m]⟩) (r : Fin n) (c : Fin m) :
    broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

end Layout

/-- The sum over the channel axis of an `[n, m]` block, read at row `r`, is `∑ k, src (r, k)`: the one-axis
    reduction law, its lifted index `(r, k)` written by coordinates. -/
theorem rowSum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (r : Fin n) :
    multiReduction (F := Ideal) .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

/-! ## The three pieces of a row's normalisation, read at an index

For an `[n, m]` block `x`: the mean column, the column of summed squared deviations from a given column, and the
normalised, scaled and shifted entry. -/

section Norm
variable {n m : ℕ}

/-- The mean column at row `r`: the row's sum over its channels divided by the constant `N`. -/
theorem mean_apply (x : FVec Ideal ⟨2, ![n, m]⟩ .f32)
    (hR : (⟨2, ![n, m]⟩ : Shape).Reduces [1] ⟨1, ![n]⟩) (hφ : FKind.Formats .f32)
    (hacc : (0x00000000#32 : BitVec 32) = 0x00000000#32)
    (hC : (⟨1, ![n]⟩ : Shape).ShapeCasts ⟨2, ![n, 1]⟩) (N : BitVec 32) (r : Fin n) :
    divf (shapeCast ⟨2, ![n, 1]⟩ (multiReduction (F := Ideal) .add [1] ⟨1, ![n]⟩ x 0x00000000#32 hR hφ hacc) hC)
        (broadcast ⟨2, ![n, 1]⟩ (Scalar.ofBits .f32 N : Ideal .f32)) (ix2 r (0 : Fin 1))
      = Ideal.div (∑ k : Fin m, x (ix2 r k)) (Ideal.ofBits .f32 N) :=
  congrArg (fun t => Ideal.div t (Ideal.ofBits .f32 N))
    ((shapeCast_a_a1_apply _ hC r).trans (rowSum_apply x hR hφ hacc r))

/-- The summed squared deviations of row `r` from the column `mu`: `∑ k, (x (r, k) − mu r)²`, the column read
    through its broadcast across the channels. -/
theorem sqdev_apply (x : FVec Ideal ⟨2, ![n, m]⟩ .f32) (mu : FVec Ideal ⟨2, ![n, 1]⟩ .f32)
    (hB : (⟨2, ![n, 1]⟩ : Shape).Broadcasts ⟨2, ![n, m]⟩)
    (hR : (⟨2, ![n, m]⟩ : Shape).Reduces [1] ⟨1, ![n]⟩) (hφ : FKind.Formats .f32)
    (hacc : (0x00000000#32 : BitVec 32) = 0x00000000#32)
    (hC : (⟨1, ![n]⟩ : Shape).ShapeCasts ⟨2, ![n, 1]⟩) (r : Fin n) :
    shapeCast ⟨2, ![n, 1]⟩ (multiReduction (F := Ideal) .add [1] ⟨1, ![n]⟩
        (mulf (subf x (broadcastTo ⟨2, ![n, m]⟩ mu hB)) (subf x (broadcastTo ⟨2, ![n, m]⟩ mu hB)))
        0x00000000#32 hR hφ hacc) hC (ix2 r (0 : Fin 1))
      = ∑ k : Fin m, (x (ix2 r k) - mu (ix2 r (0 : Fin 1))) * (x (ix2 r k) - mu (ix2 r (0 : Fin 1))) := by
  refine ((shapeCast_a_a1_apply _ hC r).trans (rowSum_apply _ hR hφ hacc r)).trans ?_
  refine Finset.sum_congr rfl fun k _ => ?_
  show (x (ix2 r k) - broadcastTo ⟨2, ![n, m]⟩ mu hB (ix2 r k))
      * (x (ix2 r k) - broadcastTo ⟨2, ![n, m]⟩ mu hB (ix2 r k)) = _
  rw [broadcastTo_a1_ab_apply mu hB r k]

/-- The normalised entry `(r, c)`: the deviation from the mean column times the reciprocal square root of the
    variance column (`V / Nv`) plus the offset `E`, times the gain row at `c`, plus the bias row at `c`. -/
theorem affine_apply (x : FVec Ideal ⟨2, ![n, m]⟩ .f32) (mu V Nv : FVec Ideal ⟨2, ![n, 1]⟩ .f32)
    (g b : FVec Ideal ⟨2, ![1, m]⟩ .f32)
    (hB : (⟨2, ![n, 1]⟩ : Shape).Broadcasts ⟨2, ![n, m]⟩)
    (hG : (⟨2, ![1, m]⟩ : Shape).Broadcasts ⟨2, ![n, m]⟩) (E : BitVec 32) (r : Fin n) (c : Fin m) :
    addf (mulf (mulf (subf x (broadcastTo ⟨2, ![n, m]⟩ mu hB))
            (broadcastTo ⟨2, ![n, m]⟩
              (rsqrt (addf (divf V Nv) (broadcast ⟨2, ![n, 1]⟩ (Scalar.ofBits .f32 E : Ideal .f32)))) hB))
          (broadcastTo ⟨2, ![n, m]⟩ g hG)) (broadcastTo ⟨2, ![n, m]⟩ b hG) (ix2 r c)
      = ((x (ix2 r c) - mu (ix2 r (0 : Fin 1)))
            * Ideal.rsqrt (Ideal.div (V (ix2 r (0 : Fin 1))) (Nv (ix2 r (0 : Fin 1))) + Ideal.ofBits .f32 E))
          * g (ix2 (0 : Fin 1) c) + b (ix2 (0 : Fin 1) c) := by
  show ((x (ix2 r c) - broadcastTo ⟨2, ![n, m]⟩ mu hB (ix2 r c))
          * broadcastTo ⟨2, ![n, m]⟩
              (rsqrt (addf (divf V Nv) (broadcast ⟨2, ![n, 1]⟩ (Scalar.ofBits .f32 E : Ideal .f32)))) hB (ix2 r c))
        * broadcastTo ⟨2, ![n, m]⟩ g hG (ix2 r c) + broadcastTo ⟨2, ![n, m]⟩ b hG (ix2 r c) = _
  rw [broadcastTo_a1_ab_apply mu hB r c, broadcastTo_a1_ab_apply _ hB r c, broadcastTo_1b_ab_apply g hG r c,
    broadcastTo_1b_ab_apply b hG r c]
  rfl

end Norm

/-! ## The kernel's payloads at an index -/

/-- The identity cast of the block is the block. -/
theorem pay4_eq (x8 : Vec Ideal S128x64 .f32) : k0_pay4 x8 = x8 := by
  unfold k0_pay4
  exact shapeCast_self x8 _

/-- The mean column at row `r`: the row's sum divided by 64. -/
theorem pay5_apply (x8 : Vec Ideal S128x64 .f32) (r : Fin 128) :
    k0_pay5 x8 (ix2 r (0 : Fin 1)) = Ideal.div (∑ k : Fin 64, x8 (ix2 r k)) Cert.Spec.n64 := by
  unfold k0_pay5
  rw [pay4_eq]
  exact mean_apply x8 _ _ _ _ _ r

/-- The column of summed squared deviations from the mean, at row `r`. -/
theorem pay6_apply (x8 : Vec Ideal S128x64 .f32) (r : Fin 128) :
    k0_pay6 x8 (ix2 r (0 : Fin 1))
      = ∑ k : Fin 64, (x8 (ix2 r k) - k0_pay5 x8 (ix2 r (0 : Fin 1))) * (x8 (ix2 r k) - k0_pay5 x8 (ix2 r (0 : Fin 1))) := by
  unfold k0_pay6
  rw [pay4_eq]
  exact sqdev_apply x8 (k0_pay5 x8) _ _ _ _ _ r

/-- The divisor column is 64 everywhere. -/
theorem pay7_apply (r : Fin 128) : k0_pay7 (F := Ideal) (ix2 r (0 : Fin 1)) = Cert.Spec.n64 := rfl

/-- Entry `(r, c)` of the stored block is entry `c` of the LayerNorm of row `r`, with gain `x6` and bias `x7`. -/
theorem payM_apply (x6 x7 : Vec Ideal S1x64 .f32) (x8 : Vec Ideal S128x64 .f32) (r : Fin 128) (c : Fin 64) :
    k0_pay1 (k0_pay4 x8) (k0_pay5 x8) (k0_pay6 x8) (k0_pay7 (F := Ideal)) x6 x7 (ix2 r c)
      = Cert.Spec.lnorm Cert.Spec.n64 (fun k => x8 (ix2 r k)) (x6 (ix2 0 c)) (x7 (ix2 0 c)) c := by
  unfold k0_pay1
  refine (affine_apply (k0_pay4 x8) (k0_pay5 x8) (k0_pay6 x8) (k0_pay7 (F := Ideal)) x6 x7 _ _ _ r c).trans ?_
  rw [pay4_eq, pay6_apply, pay5_apply, pay7_apply]
  rfl

end Cert.KernelIdeal.PayM

end
-- ==== Proof.KernelZ.lean ====
/-
  The z-output block of the fused kernel, read at block coordinates (p, q, c).

  The body forms, for the 16 points of one array and the 256 of the other, the distance d (p, q); its 17 Fourier
  features sin (d · 2⁻ᵏ), cos (d · 2⁻ᵏ) (k < 8) and d · 2⁻⁰, laid out as a [4096, 17] matrix whose row p·256 + q is the
  pair (p, q); ONE product of that matrix with the [17, 128] weights, plus the bias; and the LayerNorm over the 128
  channels of the pair's row of z, with gain and bias. This file reads every layout operation of that body at
  coordinates (a broadcast reads its operand at the kept coordinates, a cast at the same row-major position, the
  concatenation the piece holding the column, the channel sum a sum over the 128 coordinates, the product a sum over the
  17 columns) and concludes that the stored entry is Spec's zOne of the loaded entries.
-/
import proofs.«126780_g2000505677692961_pallasbulk_1150_4_alg».proof.Proof.Gen.KernelIdeal.Skeleton
import proofs.«126780_g2000505677692961_pallasbulk_1150_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.PayZ
open Cert.KernelIdeal Cert.KernelIdeal.Gen

/-! ## The product's dimension numbers: which coordinate each operand index reads -/

/-- The [4096,17] × [17,128] product's dimension numbers: the left operand contracts its axis 1, the right one its axis 0. -/
abbrev D := dot_S4096x17_S17x128_S4096x128_1_0_0_1_n_n

/-- The left operand's row is the output's row. -/
theorem lhs_0 (j : S4096x128.Idx) (k : D.contr.Idx) : (D.lhsIdx j k 0).val = (j 0).val := by
  unfold DotDims.lhsIdx
  rw [dif_neg (show ¬ (0 : Fin S4096x17.rank) ∈ D.lhsBatch by decide), dif_pos (show (0 : Fin S4096x17.rank) ∈ D.lhsNonContracting by decide)]
  rfl

/-- The left operand's column is the contraction position. -/
theorem lhs_1 (j : S4096x128.Idx) (k : D.contr.Idx) : (D.lhsIdx j k 1).val = (k ⟨0, by decide⟩).val :=
  D.lhsIdx_val_of_single (cl := 1) rfl j k

/-- The right operand's row is the contraction position. -/
theorem rhs_0 (j : S4096x128.Idx) (k : D.contr.Idx) : (D.rhsIdx j k 0).val = (k ⟨0, by decide⟩).val :=
  D.rhsIdx_val_of_single (cr := 0) rfl j k

/-- The right operand's column is the output's column. -/
theorem rhs_1 (j : S4096x128.Idx) (k : D.contr.Idx) : (D.rhsIdx j k 1).val = (j 1).val := by
  unfold DotDims.rhsIdx
  rw [dif_neg (show ¬ (1 : Fin S17x128.rank) ∈ D.rhsBatch by decide), dif_pos (show (1 : Fin S17x128.rank) ∈ D.rhsNonContracting by decide)]
  rfl

/-! ## Layout operations of the body at coordinates -/

section Layout
variable {α : Type}

/-- A column [16,1] spread over [16,256] reads, at (p, q), the column at p. -/
theorem bcol_apply (v : S16x1.Idx → α) (h : S16x1.Broadcasts S16x256) (p : Fin 16) (q : Fin 256) :
    broadcastTo S16x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The keepdims cast [16,256] → [16,256,1] reads, at (p, q, 0), the operand at (p, q). -/
theorem keep_apply (v : S16x256.Idx → α) (h : S16x256.ShapeCasts S16x256x1) (p : Fin 16) (q : Fin 256) (z : Fin 1) :
    shapeCast S16x256x1 v h (ix3 p q z) = v (ix2 p q) :=
  shapeCast_apply v h _ _ (by
    have hz : z.val = 0 := by omega
    rw [Shape.rowMajor_val_three, Shape.rowMajor_val_two]
    show p.val * 256 + q.val = (p.val * 256 + q.val) * 1 + z.val
    omega)

/-- A [16,256,1] array spread along a last axis of extent n reads, at (p, q, k), the operand at (p, q, 0). -/
theorem bkeep_apply {n : ℕ} (v : S16x256x1.Idx → α) (h : S16x256x1.Broadcasts ⟨3, ![16, 256, n]⟩)
    (p : Fin 16) (q : Fin 256) (k : Fin n) :
    broadcastTo ⟨3, ![16, 256, n]⟩ v h (ix3 p q k) = v (ix3 p q (0 : Fin 1)) := by
  refine broadcastTo_apply v h (ix3 p q k) (ix3 p q (0 : Fin 1)) fun ax => ?_
  match ax with
  | ⟨0, _⟩ => rfl
  | ⟨1, _⟩ => rfl
  | ⟨2, _⟩ => rfl

/-- A [1,1,n] array spread over [16,256,n] reads, at (p, q, k), the operand at (0, 0, k). -/
theorem blane_apply {n : ℕ} (v : (⟨3, ![1, 1, n]⟩ : Shape).Idx → α) (h : (⟨3, ![1, 1, n]⟩ : Shape).Broadcasts ⟨3, ![16, 256, n]⟩)
    (p : Fin 16) (q : Fin 256) (k : Fin n) :
    broadcastTo ⟨3, ![16, 256, n]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if n = 1 then 0 else k.val
    split
    · have := k.isLt; omega
    · rfl

/-- Row p·256 + q of a [4096, n] matrix. -/
abbrev row (p : Fin 16) (q : Fin 256) : Fin 4096 := ⟨p.val * 256 + q.val, by omega⟩

/-- The cast [16,256,n] → [4096,n] reads, at (p·256 + q, k), the operand at (p, q, k). -/
theorem flat_apply {n : ℕ} (v : (⟨3, ![16, 256, n]⟩ : Shape).Idx → α) (h : (⟨3, ![16, 256, n]⟩ : Shape).ShapeCasts ⟨2, ![4096, n]⟩)
    (p : Fin 16) (q : Fin 256) (k : Fin n) :
    shapeCast ⟨2, ![4096, n]⟩ v h (ix2 (row p q) k) = v (ix3 p q k) :=
  shapeCast_apply v h _ _ (by
    rw [Shape.rowMajor_val_three, Shape.rowMajor_val_two]
    rfl)

/-- The cast [4096,n] → [16,256,n] reads, at (p, q, k), the operand at (p·256 + q, k). -/
theorem unflat_apply {n : ℕ} (v : (⟨2, ![4096, n]⟩ : Shape).Idx → α) (h : (⟨2, ![4096, n]⟩ : Shape).ShapeCasts ⟨3, ![16, 256, n]⟩)
    (p : Fin 16) (q : Fin 256) (k : Fin n) :
    shapeCast ⟨3, ![16, 256, n]⟩ v h (ix3 p q k) = v (ix2 (row p q) k) :=
  shapeCast_apply v h _ _ (by
    rw [Shape.rowMajor_val_three, Shape.rowMajor_val_two]
    rfl)

end Layout

/-! ## Pointwise operations at an index (definitional at the extended reals) -/

section Pointwise
variable {s : Shape} {φ : FTy}
theorem sqrt_apply (a : FVec Ideal s φ) (i : s.Idx) : sqrt a i = Ideal.sqrt (a i) := rfl
theorem rsqrt_apply (a : FVec Ideal s φ) (i : s.Idx) : rsqrt a i = Ideal.rsqrt (a i) := rfl
theorem exp2_apply (a : FVec Ideal s φ) (i : s.Idx) : exp2 a i = Ideal.exp2 (a i) := rfl
theorem sin_apply (a : FVec Ideal s φ) (i : s.Idx) : sin a i = Ideal.sin (a i) := rfl
theorem cos_apply (a : FVec Ideal s φ) (i : s.Idx) : cos a i = Ideal.cos (a i) := rfl
end Pointwise

/-- The scale 2⁻ᵏ: exp2 of zero minus the counter along the last axis, at (0, 0, k). -/
theorem scale_apply (h : S1x1x8.Iotas .tc 32 [2]) (k : Fin 8) :
    exp2 (subf (broadcast S1x1x8 (FloatOps.ofBits (F := Ideal) .f32 0x00000000#32))
      (sitofp .f32 (iota .tc S1x1x8 32 [2] h))) (ix3 (0 : Fin 1) (0 : Fin 1) k) = Cert.Spec.pow2neg k := by
  rw [exp2_apply, subf_apply, sitofp_apply, broadcast_apply, iota_single_apply]
  rfl

/-- The sum over the channel axis of a [16,256,128] block, at (p, q): the sum of the row's 128 entries. -/
theorem lane_sum (v : FVec Ideal S16x256x128 .f32) (h : S16x256x128.Reduces [2] S16x256)
    (hφ : FTy.f32 = FTy.f32 ∨ FTy.f32 = FTy.bf16) (hacc : (0x00000000#32 : BitVec FTy.f32.bits) = 0x00000000#32)
    (p : Fin 16) (q : Fin 256) :
    multiReduction (F := Ideal) .add [2] S16x256 v 0x00000000#32 h hφ hacc (ix2 p q) = ∑ k : Fin 128, v (ix3 p q k) := by
  refine (Ideal.multiReduction_add_single v 0x00000000#32 h hφ hacc (ix2 p q)).trans ?_
  refine Finset.sum_congr rfl fun k _ => congrArg v ?_
  funext a
  match a with
  | ⟨0, _⟩ => rfl
  | ⟨1, _⟩ => rfl
  | ⟨2, _⟩ => rfl

section Slices
variable {α : Type}

/-- Column 0, 1, 2 of a [16,3] array as a [16,1] column. -/
theorem col0_apply (X : S16x3.Idx → α) (h : S16x3.Slices ![0, 0] S16x1) (p : Fin 16) (z : Fin 1) :
    extractStridedSlice S16x1 ![0, 0] X h (ix2 p z) = X (ix2 p (0 : Fin 3)) :=
  slice2_axis1_apply 0 X h p z 0 (by have hz : z.val = 0 := by omega
                                     rw [hz]; rfl)
theorem col1_apply (X : S16x3.Idx → α) (h : S16x3.Slices ![0, 1] S16x1) (p : Fin 16) (z : Fin 1) :
    extractStridedSlice S16x1 ![0, 1] X h (ix2 p z) = X (ix2 p (1 : Fin 3)) :=
  slice2_axis1_apply 1 X h p z 1 (by have hz : z.val = 0 := by omega
                                     rw [hz]; rfl)
theorem col2_apply (X : S16x3.Idx → α) (h : S16x3.Slices ![0, 2] S16x1) (p : Fin 16) (z : Fin 1) :
    extractStridedSlice S16x1 ![0, 2] X h (ix2 p z) = X (ix2 p (2 : Fin 3)) :=
  slice2_axis1_apply 2 X h p z 2 (by have hz : z.val = 0 := by omega
                                     rw [hz]; rfl)

/-- Row 0, 1, 2 of a [3,256] array as a [1,256] row. -/
theorem row0_apply (X : S3x256.Idx → α) (h : S3x256.Slices ![0, 0] S1x256) (z : Fin 1) (q : Fin 256) :
    extractStridedSlice S1x256 ![0, 0] X h (ix2 z q) = X (ix2 (0 : Fin 3) q) :=
  slice2_axis0_apply 0 X h z q 0 (by have hz : z.val = 0 := by omega
                                     rw [hz]; rfl)
theorem row1_apply (X : S3x256.Idx → α) (h : S3x256.Slices ![1, 0] S1x256) (z : Fin 1) (q : Fin 256) :
    extractStridedSlice S1x256 ![1, 0] X h (ix2 z q) = X (ix2 (1 : Fin 3) q) :=
  slice2_axis0_apply 1 X h z q 1 (by have hz : z.val = 0 := by omega
                                     rw [hz]; rfl)
theorem row2_apply (X : S3x256.Idx → α) (h : S3x256.Slices ![2, 0] S1x256) (z : Fin 1) (q : Fin 256) :
    extractStridedSlice S1x256 ![2, 0] X h (ix2 z q) = X (ix2 (2 : Fin 3) q) :=
  slice2_axis0_apply 2 X h z q 2 (by have hz : z.val = 0 := by omega
                                     rw [hz]; rfl)

end Slices

/-! ## The 17 features and their product with the weights -/

/-- Column k of the concatenation of the sines, the cosines and column 0 of a [4096,8] matrix m, in row r: the sine of
    m (r, k) for k < 8, the cosine of m (r, k − 8) for 8 ≤ k < 16, and m (r, 0) for k = 16. -/
theorem cat_apply (m : FVec Ideal S4096x8 .f32) (hs : S4096x8.Slices ![0, 0] S4096x1)
    (hc : Shape.Concatenates [S4096x8, S4096x8, S4096x1] S4096x17 1) (r : Fin 4096) (k : Fin 17) :
    concatenate S4096x17 1 [⟨S4096x8, sin m⟩, ⟨S4096x8, cos m⟩, ⟨S4096x1, extractStridedSlice S4096x1 ![0, 0] m hs⟩] hc (ix2 r k)
      = if h : k.val < 8 then Ideal.sin (m (ix2 r ⟨k.val, h⟩))
        else if h2 : k.val < 16 then Ideal.cos (m (ix2 r ⟨k.val - 8, by omega⟩))
        else m (ix2 r (0 : Fin 8)) := by
  by_cases h : k.val < 8
  · rw [dif_pos h]
    exact concatenate_apply_piece (1 : Fin S4096x17.rank)
      ([⟨S4096x8, sin m⟩, ⟨S4096x8, cos m⟩, ⟨S4096x1, extractStridedSlice S4096x1 ![0, 0] m hs⟩] : List ((s : Shape) × (s.Idx → Ideal .f32)))
      hc (ix2 r k) 0 (by show (0 : ℕ) < 3; omega) S4096x8 (sin m) rfl rfl 0 rfl
      (ix2 r ⟨k.val, h⟩) (fun b hb => by
        match b with
        | ⟨0, _⟩ => rfl
        | ⟨1, _⟩ => exact absurd rfl hb) (by show 0 + k.val = k.val; omega)
  · rw [dif_neg h]
    by_cases h2 : k.val < 16
    · rw [dif_pos h2]
      exact concatenate_apply_piece (1 : Fin S4096x17.rank)
        ([⟨S4096x8, sin m⟩, ⟨S4096x8, cos m⟩, ⟨S4096x1, extractStridedSlice S4096x1 ![0, 0] m hs⟩] : List ((s : Shape) × (s.Idx → Ideal .f32)))
        hc (ix2 r k) 1 (by show (1 : ℕ) < 3; omega) S4096x8 (cos m) rfl rfl 8 rfl
        (ix2 r ⟨k.val - 8, by omega⟩) (fun b hb => by
          match b with
          | ⟨0, _⟩ => rfl
          | ⟨1, _⟩ => exact absurd rfl hb) (by show 8 + (k.val - 8) = k.val; omega)
    · rw [dif_neg h2]
      refine (concatenate_apply_piece (1 : Fin S4096x17.rank)
        ([⟨S4096x8, sin m⟩, ⟨S4096x8, cos m⟩, ⟨S4096x1, extractStridedSlice S4096x1 ![0, 0] m hs⟩] : List ((s : Shape) × (s.Idx → Ideal .f32)))
        hc (ix2 r k) 2 (by show (2 : ℕ) < 3; omega) S4096x1
        (extractStridedSlice S4096x1 ![0, 0] m hs) rfl rfl 16 rfl
        (ix2 r (0 : Fin 1)) (fun b hb => by
          match b with
          | ⟨0, _⟩ => rfl
          | ⟨1, _⟩ => exact absurd rfl hb) (by show 16 + 0 = k.val; have := k.isLt; omega)).trans ?_
      exact slice2_axis1_apply 0 m hs r 0 0 rfl

/-- Feature k of row p·256 + q, for a distance block d and a scale row e: Spec's feature k of d (p, q) under the scales e. -/
theorem feats_apply (d : FVec Ideal S16x256 .f32) (e : FVec Ideal S1x1x8 .f32)
    (h30 : S16x256.ShapeCasts S16x256x1) (h31 : S16x256x1.Broadcasts S16x256x8) (h32 : S1x1x8.Broadcasts S16x256x8)
    (h34 : S16x256x8.ShapeCasts S4096x8) (hs : S4096x8.Slices ![0, 0] S4096x1)
    (hc : Shape.Concatenates [S4096x8, S4096x8, S4096x1] S4096x17 1) (p : Fin 16) (q : Fin 256) (k : Fin 17) :
    concatenate S4096x17 1
        [⟨S4096x8, sin (shapeCast S4096x8 (mulf (broadcastTo S16x256x8 (shapeCast S16x256x1 d h30) h31) (broadcastTo S16x256x8 e h32)) h34)⟩,
         ⟨S4096x8, cos (shapeCast S4096x8 (mulf (broadcastTo S16x256x8 (shapeCast S16x256x1 d h30) h31) (broadcastTo S16x256x8 e h32)) h34)⟩,
         ⟨S4096x1, extractStridedSlice S4096x1 ![0, 0]
            (shapeCast S4096x8 (mulf (broadcastTo S16x256x8 (shapeCast S16x256x1 d h30) h31) (broadcastTo S16x256x8 e h32)) h34) hs⟩]
        hc (ix2 (row p q) k)
      = Cert.Spec.feat (d (ix2 p q)) (fun k' => e (ix3 (0 : Fin 1) (0 : Fin 1) k')) k := by
  rw [cat_apply]
  unfold Cert.Spec.feat
  simp only [flat_apply, mulf_apply, bkeep_apply, blane_apply, keep_apply]

/-- The product of a [4096,17] matrix A with the [17,128] weights B into a zero block, at (r, c): the sum over the 17
    columns k of A (r, k) · B (k, c). Row r, column k of A and row k, column c of B are the operands' indices the
    contraction reads (the left operand contracts its axis 1, the right one its axis 0). -/
theorem mm_apply (A : FVec Ideal S4096x17 .f32) (B : Vec Ideal S17x128 .f32) (r : Fin 4096) (c : Fin 128) :
    matmul (φ₂ := .f32) D none A B (constant (F := Ideal) S4096x128 .f32 0x00000000#32) (ix2 r c) = ∑ k : Fin 17, A (ix2 r k) * B (ix2 k c) := by
  refine (Ideal.matmul_constant_zero_apply D none A B (ix2 r c)).trans ?_
  rw [← Equiv.sum_comp (contrEquiv1 D 17 rfl rfl).symm]
  refine Finset.sum_congr rfl fun k _ => ?_
  have hk := contrEquiv1_symm_val D 17 rfl rfl k
  congr 1
  · refine congrArg A (funext fun a => Fin.ext ?_)
    match a with
    | ⟨0, _⟩ => exact lhs_0 _ _
    | ⟨1, _⟩ => exact (lhs_1 _ _).trans hk
  · refine congrArg B (funext fun a => Fin.ext ?_)
    match a with
    | ⟨0, _⟩ => exact (rhs_0 _ _).trans hk
    | ⟨1, _⟩ => exact rhs_1 _ _

/-! ## The projection block and the stored block at coordinates -/

/-- The projection block at (p, q, c): the 17 Fourier features of the distance between point p of the first array and
    point q of the second, times column c of the weights, summed, plus the bias at c. -/
theorem pay2_apply (x0 : Vec Ideal S16x3 .f32) (x1 : Vec Ideal S3x256 .f32) (x2 : Vec Ideal S17x128 .f32)
    (x3 : Vec Ideal S1x128 .f32) (p : Fin 16) (q : Fin 256) (c : Fin 128) :
    k0_pay2 x0 x1 x2 x3 (ix3 p q c)
      = Cert.Spec.projOne
          (Cert.Spec.dist (x0 (ix2 p 0)) (x0 (ix2 p 1)) (x0 (ix2 p 2)) (x1 (ix2 0 q)) (x1 (ix2 1 q)) (x1 (ix2 2 q)))
          Cert.Spec.pow2neg (fun k => x2 (ix2 k c)) (x3 (ix2 0 c)) := by
  unfold k0_pay2
  simp only [shapeCast_self, addf_apply, unflat_apply, blane_apply, shapeCast_ab_1ab_apply, mm_apply, feats_apply,
    scale_apply, sqrt_apply, mulf_apply, subf_apply, bcol_apply, broadcastTo_1b_ab_apply, col0_apply, col1_apply, col2_apply,
    row0_apply, row1_apply, row2_apply]
  have hsc : (fun k' : Fin 8 => exp2 (subf (broadcast S1x1x8 (FloatOps.ofBits (F := Ideal) .f32 0x00000000#32))
      (sitofp .f32 (iota .tc S1x1x8 32 [2] iota_S1x1x8_d2_w32))) (ix3 (0 : Fin 1) (0 : Fin 1) k')) = Cert.Spec.pow2neg :=
    funext fun k' => scale_apply _ k'
  rw [hsc]
  unfold Cert.Spec.projOne Cert.Spec.dist
  rfl

/-- The LayerNorm part of the stored block: at (p, q, c) it is the LayerNorm of row (p, q) of the z block at channel c,
    with gain and bias read at c, plus the projection block at (p, q, c). -/
theorem pay3_apply (V : FVec Ideal S16x256x128 .f32) (x9 : Vec Ideal S16x256x128 .f32) (x4 x5 : Vec Ideal S1x128 .f32)
    (p : Fin 16) (q : Fin 256) (c : Fin 128) :
    k0_pay3 V x9 x4 x5 (ix3 p q c)
      = Cert.Spec.lnorm Cert.Spec.n128 (fun k => x9 (ix3 p q k)) (x4 (ix2 0 c)) (x5 (ix2 0 c)) c + V (ix3 p q c) := by
  unfold k0_pay3
  simp only [addf_apply, mulf_apply, subf_apply, divf_apply, rsqrt_apply, broadcast_apply, bkeep_apply, blane_apply,
    keep_apply, shapeCast_ab_1ab_apply]
  rw [lane_sum, lane_sum]
  simp only [mulf_apply, subf_apply, divf_apply, broadcast_apply, bkeep_apply, keep_apply]
  rw [lane_sum]
  unfold Cert.Spec.lnorm
  rfl

/-- THE STORED BLOCK AT (p, q, c): the LayerNorm of the pair's row of z at channel c plus the one-product projection of
    the pair's distance features, as Spec's zOne spells it. -/
theorem payZ_apply (x0 : Vec Ideal S16x3 .f32) (x1 : Vec Ideal S3x256 .f32) (x2 : Vec Ideal S17x128 .f32)
    (x3 x4 x5 : Vec Ideal S1x128 .f32) (x9 : Vec Ideal S16x256x128 .f32) (p : Fin 16) (q : Fin 256) (c : Fin 128) :
    k0_pay3 (k0_pay2 x0 x1 x2 x3) x9 x4 x5 (ix3 p q c)
      = Cert.Spec.zOne (x0 (ix2 p 0)) (x0 (ix2 p 1)) (x0 (ix2 p 2)) (x1 (ix2 0 q)) (x1 (ix2 1 q)) (x1 (ix2 2 q))
          (fun k => x2 (ix2 k c)) (x3 (ix2 0 c)) (x4 (ix2 0 c)) (x5 (ix2 0 c)) (fun k => x9 (ix3 p q k)) c := by
  rw [pay3_apply, pay2_apply]
  rfl

end Cert.KernelIdeal.PayZ
end
-- ==== Proof.KernelValue.lean ====
/-
  The kernel program's two result arrays, read off its run.  Grid point t of 16 writes rows 16t … 16t+15 of the z result and
  rows 128t … 128t+127 of the flattened m result; each written block is the body's arithmetic of the point's input blocks,
  which are the same rows of the coordinates, of z and of the flattened m, and the whole of every other operand.  The 16
  blocks tile each array, so each array is one function of the arrays the region finds; those are the host's slice of atom
  3 of x (and its transpose) and the reshape of m, and the host reshapes the flattened m result back.
-/
import proofs.«126780_g2000505677692961_pallasbulk_1150_4_alg».proof.Proof.Gen.KernelIdeal.Frame
import proofs.«126780_g2000505677692961_pallasbulk_1150_4_alg».proof.Proof.SpecArrays
import proofs.«126780_g2000505677692961_pallasbulk_1150_4_alg».proof.Proof.KernelM
import proofs.«126780_g2000505677692961_pallasbulk_1150_4_alg».proof.Proof.KernelZ
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The grid has one axis of 16 points; point t takes rows 16t … 16t+15 of the coordinates and of z, rows 128t … 128t+127 of
    the flattened m, and the whole of every other operand. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 3) = t.val ∧ win0_9.index t (1 : Fin 3) = 0 ∧ win0_9.index t (2 : Fin 3) = 0
    ∧ win0_10.index t (0 : Fin 2) = t.val ∧ win0_10.index t (1 : Fin 2) = 0
    ∧ win0_11.index t (0 : Fin 3) = t.val ∧ win0_11.index t (1 : Fin 3) = 0 ∧ win0_11.index t (2 : Fin 3) = 0 :=
  (by decide +kernel : ∀ t : Fin grid0.N, _)

theorem t_lt (t : Fin cfg0.N) : t.val < 16 := lt_of_lt_of_eq t.isLt N_0

/-! ## The input blocks as entries of the arrays the region finds -/

theorem iblk0_apply (c : Dev nD) (t : Fin cfg0.N) (x : S16x3.Idx) (k : S256x3.Idx)
    (hk0 : (k 0).val = 16 * t.val + (x 0).val) (hk1 : (k 1).val = (x 1).val) :
    (iblk m c 0 t : Vec Ideal S16x3 .f32) x = (V m c main_v1 : S256x3.Idx → Elt Ideal .f32) k := by
  obtain ⟨e0, e1, -⟩ := idx_facts t
  unfold iblk
  rw [View.read_apply]
  show V m c main_v1 _ = V m c main_v1 _
  refine congrArg (V m c main_v1 : S256x3.Idx → Elt Ideal .f32) (funext fun a => Fin.ext ?_)
  match a with
  | ⟨0, _⟩ => show win0_0.index t 0 * 16 + 1 * (x 0).val = (k 0).val; rw [e0, hk0]; omega
  | ⟨1, _⟩ => show win0_0.index t 1 * 3 + 1 * (x 1).val = (k 1).val; rw [e1, hk1]; omega

theorem iblk1_eq (c : Dev nD) (t : Fin cfg0.N) : (iblk m c 1 t : Vec Ideal S3x256 .f32) = (V m c main_v2 : S3x256.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_v2 _ = V m c main_v2 _
  refine congrArg (V m c main_v2 : S3x256.Idx → Elt Ideal .f32) (funext fun a => Fin.ext ?_)
  match a with
  | ⟨0, _⟩ => show win0_1.index t 0 * 3 + 1 * (x 0).val = (x 0).val; have := hi; omega
  | ⟨1, _⟩ => show win0_1.index t 1 * 256 + 1 * (x 1).val = (x 1).val; have := hi; omega

theorem iblk2_eq (c : Dev nD) (t : Fin cfg0.N) : (iblk m c 2 t : Vec Ideal S17x128 .f32) = (V m c main_arg3 : S17x128.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_arg3 _ = V m c main_arg3 _
  refine congrArg (V m c main_arg3 : S17x128.Idx → Elt Ideal .f32) (funext fun a => Fin.ext ?_)
  match a with
  | ⟨0, _⟩ => show win0_2.index t 0 * 17 + 1 * (x 0).val = (x 0).val; have := hi; omega
  | ⟨1, _⟩ => show win0_2.index t 1 * 128 + 1 * (x 1).val = (x 1).val; have := hi; omega

theorem iblk3_eq (c : Dev nD) (t : Fin cfg0.N) : (iblk m c 3 t : Vec Ideal S1x128 .f32) = (V m c main_arg4 : S1x128.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_arg4 _ = V m c main_arg4 _
  refine congrArg (V m c main_arg4 : S1x128.Idx → Elt Ideal .f32) (funext fun a => Fin.ext ?_)
  match a with
  | ⟨0, _⟩ => show win0_3.index t 0 * 1 + 1 * (x 0).val = (x 0).val; have := hi; omega
  | ⟨1, _⟩ => show win0_3.index t 1 * 128 + 1 * (x 1).val = (x 1).val; have := hi; omega

theorem iblk4_eq (c : Dev nD) (t : Fin cfg0.N) : (iblk m c 4 t : Vec Ideal S1x128 .f32) = (V m c main_arg5 : S1x128.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_arg5 _ = V m c main_arg5 _
  refine congrArg (V m c main_arg5 : S1x128.Idx → Elt Ideal .f32) (funext fun a => Fin.ext ?_)
  match a with
  | ⟨0, _⟩ => show win0_4.index t 0 * 1 + 1 * (x 0).val = (x 0).val; have := hi; omega
  | ⟨1, _⟩ => show win0_4.index t 1 * 128 + 1 * (x 1).val = (x 1).val; have := hi; omega

theorem iblk5_eq (c : Dev nD) (t : Fin cfg0.N) : (iblk m c 5 t : Vec Ideal S1x128 .f32) = (V m c main_arg6 : S1x128.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_arg6 _ = V m c main_arg6 _
  refine congrArg (V m c main_arg6 : S1x128.Idx → Elt Ideal .f32) (funext fun a => Fin.ext ?_)
  match a with
  | ⟨0, _⟩ => show win0_5.index t 0 * 1 + 1 * (x 0).val = (x 0).val; have := hi; omega
  | ⟨1, _⟩ => show win0_5.index t 1 * 128 + 1 * (x 1).val = (x 1).val; have := hi; omega

theorem iblk6_eq (c : Dev nD) (t : Fin cfg0.N) : (iblk m c 6 t : Vec Ideal S1x64 .f32) = (V m c main_arg7 : S1x64.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_arg7 _ = V m c main_arg7 _
  refine congrArg (V m c main_arg7 : S1x64.Idx → Elt Ideal .f32) (funext fun a => Fin.ext ?_)
  match a with
  | ⟨0, _⟩ => show win0_6.index t 0 * 1 + 1 * (x 0).val = (x 0).val; have := hi; omega
  | ⟨1, _⟩ => show win0_6.index t 1 * 64 + 1 * (x 1).val = (x 1).val; have := hi; omega

theorem iblk7_eq (c : Dev nD) (t : Fin cfg0.N) : (iblk m c 7 t : Vec Ideal S1x64 .f32) = (V m c main_arg8 : S1x64.Idx → Elt Ideal .f32) := by
  obtain ⟨-, -, -, -, -, -, -, -, -, -, -, -, -, -, -, -, -, -, -, -, -, -, -, -, -, -, -⟩ := idx_facts t
  have hi := idx_facts t
  funext x
  unfold iblk
  rw [View.read_apply]
  show V m c main_arg8 _ = V m c main_arg8 _
  refine congrArg (V m c main_arg8 : S1x64.Idx → Elt Ideal .f32) (funext fun a => Fin.ext ?_)
  match a with
  | ⟨0, _⟩ => show win0_7.index t 0 * 1 + 1 * (x 0).val = (x 0).val; have := hi; omega
  | ⟨1, _⟩ => show win0_7.index t 1 * 64 + 1 * (x 1).val = (x 1).val; have := hi; omega

theorem iblk8_apply (c : Dev nD) (t : Fin cfg0.N) (x : S128x64.Idx) (k : S2048x64.Idx)
    (hk0 : (k 0).val = 128 * t.val + (x 0).val) (hk1 : (k 1).val = (x 1).val) :
    (iblk m c 8 t : Vec Ideal S128x64 .f32) x = (V m c main_v3 : S2048x64.Idx → Elt Ideal .f32) k := by
  have hi := idx_facts t
  unfold iblk
  rw [View.read_apply]
  show V m c main_v3 _ = V m c main_v3 _
  refine congrArg (V m c main_v3 : S2048x64.Idx → Elt Ideal .f32) (funext fun a => Fin.ext ?_)
  match a with
  | ⟨0, _⟩ => show win0_8.index t 0 * 128 + 1 * (x 0).val = (k 0).val; rw [hk0]; omega
  | ⟨1, _⟩ => show win0_8.index t 1 * 64 + 1 * (x 1).val = (k 1).val; rw [hk1]; omega

theorem iblk9_apply (c : Dev nD) (t : Fin cfg0.N) (x : S16x256x128.Idx) (k : S256x256x128.Idx)
    (hk0 : (k 0).val = 16 * t.val + (x 0).val) (hk1 : (k 1).val = (x 1).val) (hk2 : (k 2).val = (x 2).val) :
    (iblk m c 9 t : Vec Ideal S16x256x128 .f32) x = (V m c main_arg1 : S256x256x128.Idx → Elt Ideal .f32) k := by
  have hi := idx_facts t
  unfold iblk
  rw [View.read_apply]
  show V m c main_arg1 _ = V m c main_arg1 _
  refine congrArg (V m c main_arg1 : S256x256x128.Idx → Elt Ideal .f32) (funext fun a => Fin.ext ?_)
  match a with
  | ⟨0, _⟩ => show win0_9.index t 0 * 16 + 1 * (x 0).val = (k 0).val; rw [hk0]; omega
  | ⟨1, _⟩ => show win0_9.index t 1 * 256 + 1 * (x 1).val = (k 1).val; rw [hk1]; omega
  | ⟨2, _⟩ => show win0_9.index t 2 * 128 + 1 * (x 2).val = (k 2).val; rw [hk2]; omega

/-- Row 16t + p of the 256 residues. -/
def zrow (t : Fin cfg0.N) (p : Fin 16) : Fin 256 := ⟨16 * t.val + p.val, by have := t_lt t; omega⟩
/-- Row 128t + r of the 2048 flattened rows of m. -/
def mrow (t : Fin cfg0.N) (r : Fin 128) : Fin 2048 := ⟨128 * t.val + r.val, by have := t_lt t; omega⟩

theorem emb11 (t : Fin cfg0.N) (p : Fin 16) (q : Fin 256) (c' : Fin 128) :
    ((cfg0.win 11).blk t).view.emb (ix3 p q c') = (ix3 (zrow t p) q c' : S256x256x128.Idx) := by
  have hi := idx_facts t
  refine funext fun a => Fin.ext ?_
  match a with
  | ⟨0, _⟩ => show win0_11.index t 0 * 16 + 1 * p.val = 16 * t.val + p.val; omega
  | ⟨1, _⟩ => show win0_11.index t 1 * 256 + 1 * q.val = q.val; omega
  | ⟨2, _⟩ => show win0_11.index t 2 * 128 + 1 * c'.val = c'.val; omega

theorem emb10 (t : Fin cfg0.N) (r : Fin 128) (c' : Fin 64) :
    ((cfg0.win 10).blk t).view.emb (ix2 r c') = (ix2 (mrow t r) c' : S2048x64.Idx) := by
  have hi := idx_facts t
  refine funext fun a => Fin.ext ?_
  match a with
  | ⟨0, _⟩ => show win0_10.index t 0 * 128 + 1 * r.val = 128 * t.val + r.val; omega
  | ⟨1, _⟩ => show win0_10.index t 1 * 64 + 1 * c'.val = c'.val; omega

/-! ## What the two result arrays hold, as functions of the arrays the region finds -/

/-- The z result from the last-atom coordinates `cb` [256, 3], their transpose `cbt` [3, 256], the weights, the bias, the
    LayerNorm gain and bias and z: entry (i, j, c) is the LayerNorm of row (i, j) of z at c plus the projection of the
    features of the distance between rows i and j of the coordinates onto column c of the weights. -/
def GzK (cb : S256x3.Idx → EReal) (cbt : S3x256.Idx → EReal) (w : S17x128.Idx → EReal) (b gz bz : S1x128.Idx → EReal)
    (z : S256x256x128.Idx → EReal) : S256x256x128.Idx → EReal := fun i =>
  Cert.Spec.zOne (cb (ix2 (i 0) 0)) (cb (ix2 (i 0) 1)) (cb (ix2 (i 0) 2)) (cbt (ix2 0 (i 1))) (cbt (ix2 1 (i 1))) (cbt (ix2 2 (i 1)))
    (fun k => w (ix2 k (i 2))) (b (ix2 0 (i 2))) (gz (ix2 0 (i 2))) (bz (ix2 0 (i 2))) (fun k => z (ix3 (i 0) (i 1) k)) (i 2)

/-- The m result on the flattened rows: entry (r, c) is the LayerNorm of row r at c. -/
def GmK (m2 : S2048x64.Idx → EReal) (gm bm : S1x64.Idx → EReal) : S2048x64.Idx → EReal := fun i =>
  Cert.Spec.lnorm Cert.Spec.n64 (fun k => m2 (ix2 (i 0) k)) (gm (ix2 0 (i 1))) (bm (ix2 0 (i 1))) (i 1)

theorem flushed11_eq (c : Dev nD) (t : Fin cfg0.N) :
    (dats m 0 c).flushed 11 t = ((cfg0.win 11).blk t).view.read (Elt Ideal)
      (GzK (V m c main_v1) (V m c main_v2) (V m c main_arg3) (V m c main_arg4) (V m c main_arg5) (V m c main_arg6) (V m c main_arg1)) := by
  show (cfg0.win 11).cut (grid0.coords t) ((dats m 0 c).after 11 t) = _
  rw [after0_11]
  unfold out0_11
  rw [View.canon_unit_zero hz3]
  simp only [View.ld_unit_zero (S := S16x3) hz2, View.ld_unit_zero (S := S3x256) hz2, View.ld_unit_zero (S := S17x128) hz2,
    View.ld_unit_zero (S := S1x128) hz2, View.ld_unit_zero (S := S16x256x128) hz3]
  funext j
  obtain ⟨p, q, c', rfl⟩ : ∃ (p : Fin 16) (q : Fin 256) (c' : Fin 128), j = ix3 p q c' := ⟨j 0, j 1, j 2, eq_ix3 j⟩
  rw [View.read_apply, emb11]
  refine (Cert.KernelIdeal.PayZ.payZ_apply (iblk m c 0 t) (iblk m c 1 t) (iblk m c 2 t) (iblk m c 3 t) (iblk m c 4 t) (iblk m c 5 t) (iblk m c 9 t) p q c').trans ?_
  show _ = GzK (V m c main_v1) (V m c main_v2) (V m c main_arg3) (V m c main_arg4) (V m c main_arg5) (V m c main_arg6)
    (V m c main_arg1) (ix3 (zrow t p) q c')
  have h9 : (fun k : Fin 128 => (iblk m c 9 t : Vec Ideal S16x256x128 .f32) (ix3 p q k))
      = fun k => (V m c main_arg1 : S256x256x128.Idx → Elt Ideal .f32) (ix3 (zrow t p) q k) :=
    funext fun k => iblk9_apply m c t _ _ rfl rfl rfl
  rw [h9, iblk1_eq, iblk2_eq, iblk3_eq, iblk4_eq, iblk5_eq,
    iblk0_apply m c t (ix2 p 0) (ix2 (zrow t p) 0) rfl rfl, iblk0_apply m c t (ix2 p 1) (ix2 (zrow t p) 1) rfl rfl,
    iblk0_apply m c t (ix2 p 2) (ix2 (zrow t p) 2) rfl rfl]
  rfl

theorem flushed10_eq (c : Dev nD) (t : Fin cfg0.N) :
    (dats m 0 c).flushed 10 t = ((cfg0.win 10).blk t).view.read (Elt Ideal)
      (GmK (V m c main_v3) (V m c main_arg7) (V m c main_arg8)) := by
  show (cfg0.win 10).cut (grid0.coords t) ((dats m 0 c).after 10 t) = _
  rw [after0_10]
  unfold out0_10
  rw [View.canon_unit_zero hz2]
  simp only [View.ld_unit_zero (S := S128x64) hz2, View.ld_unit_zero (S := S1x64) hz2]
  funext j
  obtain ⟨r, c', rfl⟩ : ∃ (r : Fin 128) (c' : Fin 64), j = ix2 r c' := ⟨j 0, j 1, eq_ix2 j⟩
  rw [View.read_apply, emb10]
  refine (Cert.KernelIdeal.PayM.payM_apply (iblk m c 6 t) (iblk m c 7 t) (iblk m c 8 t) r c').trans ?_
  show _ = GmK (V m c main_v3) (V m c main_arg7) (V m c main_arg8) (ix2 (mrow t r) c')
  have h8 : (fun k : Fin 64 => (iblk m c 8 t : Vec Ideal S128x64 .f32) (ix2 r k))
      = fun k => (V m c main_v3 : S2048x64.Idx → Elt Ideal .f32) (ix2 (mrow t r) k) :=
    funext fun k => iblk8_apply m c t _ _ rfl rfl
  rw [h8, iblk6_eq, iblk7_eq]
  rfl

/-! ## The blocks cover the arrays -/

theorem mem_blk11 (t : Fin cfg0.N) (i : S256x256x128.Idx) :
    i ∈ ((cfg0.win 11).blk t).view.set ↔ ∀ a : Fin 3, win0_11.index t a * S16x256x128.size a ≤ (i a).val ∧ (i a).val < win0_11.index t a * S16x256x128.size a + S16x256x128.size a := by
  show i ∈ ((View.whole main_v4_1).slice (win0_11.rect t)).set ↔ _
  rw [View.set_slice_whole, Rect.mem_set_unit]
  exact Iff.rfl

theorem mem_blk10 (t : Fin cfg0.N) (i : S2048x64.Idx) :
    i ∈ ((cfg0.win 10).blk t).view.set ↔ ∀ a : Fin 2, win0_10.index t a * S128x64.size a ≤ (i a).val ∧ (i a).val < win0_10.index t a * S128x64.size a + S128x64.size a := by
  show i ∈ ((View.whole main_v4_0).slice (win0_10.rect t)).set ↔ _
  rw [View.set_slice_whole, Rect.mem_set_unit]
  exact Iff.rfl

theorem cover11 (i : S256x256x128.Idx) : ∃ t : Fin cfg0.N, (cfg0.win 11).flush t = true ∧ i ∈ ((cfg0.win 11).blk t).view.set := by
  have hi0 : (i 0).val < 256 := (i 0).isLt
  have hi1 : (i 1).val < 256 := (i 1).isLt
  have hi2 : (i 2).val < 128 := (i 2).isLt
  let t : Fin cfg0.N := ⟨(i 0).val / 16, by rw [show cfg0.N = 16 from N_0]; omega⟩
  have ht : t.val = (i 0).val / 16 := rfl
  have hx := idx_facts t
  refine ⟨t, flush0_11 t, ?_⟩
  rw [mem_blk11]
  intro a
  match a with
  | ⟨0, _⟩ => show win0_11.index t 0 * 16 ≤ (i 0).val ∧ (i 0).val < win0_11.index t 0 * 16 + 16; omega
  | ⟨1, _⟩ => show win0_11.index t 1 * 256 ≤ (i 1).val ∧ (i 1).val < win0_11.index t 1 * 256 + 256; omega
  | ⟨2, _⟩ => show win0_11.index t 2 * 128 ≤ (i 2).val ∧ (i 2).val < win0_11.index t 2 * 128 + 128; omega

theorem cover10 (i : S2048x64.Idx) : ∃ t : Fin cfg0.N, (cfg0.win 10).flush t = true ∧ i ∈ ((cfg0.win 10).blk t).view.set := by
  have hi0 : (i 0).val < 2048 := (i 0).isLt
  have hi1 : (i 1).val < 64 := (i 1).isLt
  let t : Fin cfg0.N := ⟨(i 0).val / 128, by rw [show cfg0.N = 16 from N_0]; omega⟩
  have ht : t.val = (i 0).val / 128 := rfl
  have hx := idx_facts t
  refine ⟨t, flush0_10 t, ?_⟩
  rw [mem_blk10]
  intro a
  match a with
  | ⟨0, _⟩ => show win0_10.index t 0 * 128 ≤ (i 0).val ∧ (i 0).val < win0_10.index t 0 * 128 + 128; omega
  | ⟨1, _⟩ => show win0_10.index t 1 * 64 ≤ (i 1).val ∧ (i 1).val < win0_10.index t 1 * 64 + 64; omega

/-- The z result array after the run. -/
theorem final11 (c : Dev nD) : (dats m 0 c).arrAt 11 cfg0.N
    = GzK (V m c main_v1) (V m c main_v2) (V m c main_arg3) (V m c main_arg4) (V m c main_arg5) (V m c main_arg6) (V m c main_arg1) :=
  (dats m 0 c).arrAt_eq_of_cover 11 _ (fun t _ => flushed11_eq m c t) cover11

/-- The flattened m result array after the region. -/
theorem final10 (c : Dev nD) : (dats m 0 c).arrAt 10 cfg0.N = GmK (V m c main_v3) (V m c main_arg7) (V m c main_arg8) :=
  (dats m 0 c).arrAt_eq_of_cover 10 _ (fun t _ => flushed10_eq m c t) cover10

/-! ## The arrays the region finds, from the arguments -/

/-- The coordinates array the region finds is the slice of atom 3 of `x`, its unit axis dropped. -/
theorem V_v1 (c : Dev nD) : (V m c main_v1 : S256x3.Idx → Elt Ideal .f32)
    = shapeCast S256x3 (extractStridedSlice S256x1x3 ![0, 3, 0] (m ((c : Thread nD τ).loc main_arg2)) slices_S256x4x3_S256x1x3_0_3_0) shapeCasts_S256x1x3_S256x3 := by
  show StableHlo.after hostOps0 (fun b => m (c, b)) (Proc.devRef .tc main_v1) = _
  after_results
  rfl

theorem V_v2 (c : Dev nD) : (V m c main_v2 : S3x256.Idx → Elt Ideal .f32)
    = transpose S3x256 [1, 0] (V m c main_v1 : S256x3.Idx → Elt Ideal .f32) transposes_S256x3_S3x256_1_0 := by
  rw [V_v1]
  show StableHlo.after hostOps0 (fun b => m (c, b)) (Proc.devRef .tc main_v2) = _
  after_results
  rfl

theorem V_v3 (c : Dev nD) : (V m c main_v3 : S2048x64.Idx → Elt Ideal .f32)
    = shapeCast S2048x64 (m ((c : Thread nD τ).loc main_arg0)) shapeCasts_S8x256x64_S2048x64 := by
  show StableHlo.after hostOps0 (fun b => m (c, b)) (Proc.devRef .tc main_v3) = _
  after_results
  rfl

/-- Row i of the coordinates is atom 3 of residue i. -/
theorem cb_apply (c : Dev nD) (i : Fin 256) (k : Fin 3) :
    (V m c main_v1 : S256x3.Idx → Elt Ideal .f32) (ix2 i k)
      = (m ((c : Thread nD τ).loc main_arg2) : S256x4x3.Idx → Elt Ideal .f32) (ix3 i 3 k) := by
  rw [V_v1]
  refine (shapeCast_apply _ _ (ix2 i k) (ix3 i 0 k : S256x1x3.Idx) ?_).trans ?_
  · rw [Shape.rowMajor_val_three, Shape.rowMajor_val_two]
    show (i.val * 1 + 0) * 3 + k.val = i.val * 3 + k.val
    omega
  · refine extractStridedSlice_apply _ _ _ _ _ fun a => ?_
    match a with
    | ⟨0, _⟩ => show i.val = 0 + i.val; omega
    | ⟨1, _⟩ => rfl
    | ⟨2, _⟩ => show k.val = 0 + k.val; omega

/-- Column j of the transposed coordinates is atom 3 of residue j. -/
theorem cbt_apply (c : Dev nD) (k : Fin 3) (j : Fin 256) :
    (V m c main_v2 : S3x256.Idx → Elt Ideal .f32) (ix2 k j)
      = (m ((c : Thread nD τ).loc main_arg2) : S256x4x3.Idx → Elt Ideal .f32) (ix3 j 3 k) := by
  rw [V_v2]
  exact (transpose_ix2_apply _ _ k j).trans (cb_apply m c j k)

/-- Flattened row 256 s + r of m is row (s, r). -/
theorem m2_apply (c : Dev nD) (s : Fin 8) (rr : Fin 256) (k : Fin 64) (r : Fin 2048) (hr : r.val = 256 * s.val + rr.val) :
    (V m c main_v3 : S2048x64.Idx → Elt Ideal .f32) (ix2 r k)
      = (m ((c : Thread nD τ).loc main_arg0) : S8x256x64.Idx → Elt Ideal .f32) (ix3 s rr k) := by
  rw [V_v3]
  refine shapeCast_apply _ _ (ix2 r k) (ix3 s rr k : S8x256x64.Idx) ?_
  show (S8x256x64.rowMajor (ix3 s rr k)).val = (S2048x64.rowMajor (ix2 r k)).val
  rw [Shape.rowMajor_val_three, Shape.rowMajor_val_two]
  show (s.val * 256 + rr.val) * 64 + k.val = r.val * 64 + k.val
  rw [hr]; omega

/-- The z result as a function of the arguments. -/
theorem GzK_eq (c : Dev nD) :
    GzK (V m c main_v1) (V m c main_v2) (V m c main_arg3) (V m c main_arg4) (V m c main_arg5) (V m c main_arg6) (V m c main_arg1)
      = Cert.Spec.zResult (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg1)) := by
  funext i
  obtain ⟨p, q, c', rfl⟩ : ∃ (p q : Fin 256) (c' : Fin 128), i = ix3 p q c' := ⟨i 0, i 1, i 2, eq_ix3 i⟩
  show Cert.Spec.zOne ((V m c main_v1 : S256x3.Idx → Elt Ideal .f32) (ix2 p 0)) ((V m c main_v1 : S256x3.Idx → Elt Ideal .f32) (ix2 p 1))
      ((V m c main_v1 : S256x3.Idx → Elt Ideal .f32) (ix2 p 2)) ((V m c main_v2 : S3x256.Idx → Elt Ideal .f32) (ix2 0 q))
      ((V m c main_v2 : S3x256.Idx → Elt Ideal .f32) (ix2 1 q)) ((V m c main_v2 : S3x256.Idx → Elt Ideal .f32) (ix2 2 q))
      (fun k => (V m c main_arg3 : S17x128.Idx → Elt Ideal .f32) (ix2 k c')) ((V m c main_arg4 : S1x128.Idx → Elt Ideal .f32) (ix2 0 c'))
      ((V m c main_arg5 : S1x128.Idx → Elt Ideal .f32) (ix2 0 c')) ((V m c main_arg6 : S1x128.Idx → Elt Ideal .f32) (ix2 0 c'))
      (fun k => (V m c main_arg1 : S256x256x128.Idx → Elt Ideal .f32) (ix3 p q k)) c'
    = Cert.Spec.zOne ((m ((c : Thread nD τ).loc main_arg2) : S256x4x3.Idx → Elt Ideal .f32) (ix3 p 3 0)) ((m ((c : Thread nD τ).loc main_arg2) : S256x4x3.Idx → Elt Ideal .f32) (ix3 p 3 1))
      ((m ((c : Thread nD τ).loc main_arg2) : S256x4x3.Idx → Elt Ideal .f32) (ix3 p 3 2)) ((m ((c : Thread nD τ).loc main_arg2) : S256x4x3.Idx → Elt Ideal .f32) (ix3 q 3 0))
      ((m ((c : Thread nD τ).loc main_arg2) : S256x4x3.Idx → Elt Ideal .f32) (ix3 q 3 1)) ((m ((c : Thread nD τ).loc main_arg2) : S256x4x3.Idx → Elt Ideal .f32) (ix3 q 3 2))
      (fun k => (m ((c : Thread nD τ).loc main_arg3) : S17x128.Idx → Elt Ideal .f32) (ix2 k c')) ((m ((c : Thread nD τ).loc main_arg4) : S1x128.Idx → Elt Ideal .f32) (ix2 0 c'))
      ((m ((c : Thread nD τ).loc main_arg5) : S1x128.Idx → Elt Ideal .f32) (ix2 0 c')) ((m ((c : Thread nD τ).loc main_arg6) : S1x128.Idx → Elt Ideal .f32) (ix2 0 c'))
      (fun k => (m ((c : Thread nD τ).loc main_arg1) : S256x256x128.Idx → Elt Ideal .f32) (ix3 p q k)) c'
  rw [cb_apply, cb_apply, cb_apply, cbt_apply, cbt_apply, cbt_apply, V_main_arg3, V_main_arg4, V_main_arg5, V_main_arg6, V_main_arg1]

/-- The host reshapes the flattened m result back to [8, 256, 64]. -/
theorem tail_v5 (c : Dev nD) : Pipeline.afterTail₀ cfgs (dats m) 0 (V0 m) [hostOps1] c main_v5
    = shapeCast S8x256x64 ((dats m 0 c).arrAt 10 cfg0.N) shapeCasts_S2048x64_S8x256x64 := by
  unfold Pipeline.afterTail₀
  show StableHlo.after hostOps1 _ (Proc.devRef .tc main_v5) = _
  after_results
  exact congrArg (fun v => shapeCast S8x256x64 v shapeCasts_S2048x64_S8x256x64) (Pipeline.withArrays_arr spec0 launch0.win.arr_inj c _ _ 10)

/-- The m result as a function of the arguments. -/
theorem GmK_eq (c : Dev nD) :
    shapeCast S8x256x64 (GmK (V m c main_v3) (V m c main_arg7) (V m c main_arg8)) shapeCasts_S2048x64_S8x256x64
      = Cert.Spec.mResult (m ((c : Thread nD τ).loc main_arg0)) (m ((c : Thread nD τ).loc main_arg7)) (m ((c : Thread nD τ).loc main_arg8)) := by
  funext i
  obtain ⟨s, rr, k, rfl⟩ : ∃ (s : Fin 8) (rr : Fin 256) (k : Fin 64), i = ix3 s rr k := ⟨i 0, i 1, i 2, eq_ix3 i⟩
  have hlt : 256 * s.val + rr.val < 2048 := by have := s.isLt; have := rr.isLt; omega
  refine (shapeCast_apply _ _ (ix3 s rr k) (ix2 (⟨256 * s.val + rr.val, hlt⟩ : Fin 2048) k : S2048x64.Idx) ?_).trans ?_
  · rw [Shape.rowMajor_val_three, Shape.rowMajor_val_two]
    show (256 * s.val + rr.val) * 64 + k.val = (s.val * 256 + rr.val) * 64 + k.val
    omega
  · unfold GmK Cert.Spec.mResult
    have h : (fun k' : Fin 64 => (V m c main_v3 : S2048x64.Idx → Elt Ideal .f32) (ix2 (⟨256 * s.val + rr.val, hlt⟩ : Fin 2048) k'))
        = fun k' => (m ((c : Thread nD τ).loc main_arg0) : S8x256x64.Idx → Elt Ideal .f32) (ix3 s rr k') :=
      funext fun k' => m2_apply m c s rr k' _ rfl
    show Cert.Spec.lnorm Cert.Spec.n64 (fun k' => (V m c main_v3 : S2048x64.Idx → Elt Ideal .f32) (ix2 (⟨256 * s.val + rr.val, hlt⟩ : Fin 2048) k')) _ _ k = _
    rw [h, V_main_arg7, V_main_arg8]

/-! ## The run, read -/

/-- Every weakly fair execution of the program ends with the two results at `mResult` and `zResult` of the arguments, the
    arguments unchanged. -/
theorem run : θ_run defs (onTc (τ := τ) (main (F := Ideal))) ⟨m, fun _ => 0, ρ⟩ fun r => ∀ c : Dev nD,
      r.2.mem ((c.tc : Thread nD τ).loc main_v5) = Cert.Spec.mResult (m ((c : Thread nD τ).loc main_arg0)) (m ((c : Thread nD τ).loc main_arg7)) (m ((c : Thread nD τ).loc main_arg8))
      ∧ r.2.mem ((c.tc : Thread nD τ).loc main_v4_1) = Cert.Spec.zResult (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(((h c).2 main_v5 (Pipeline.mem_restRefs_of main_v5 (by decide) (by decide))).trans (tail_v5 m c)).trans
        ((congrArg (fun v => shapeCast S8x256x64 v shapeCasts_S2048x64_S8x256x64) (final10 m c)).trans (GmK_eq m c)),
      ((h c).1 11).trans ((final11 m c).trans (GzK_eq m c)),
      (((h c).2 main_arg0 (Pipeline.mem_restRefs_of main_arg0 (by decide) (by decide))).trans (W_main_arg0 m (dats m) c)),
      ((h c).1 9).trans (((dats m 0 c).arrAt_in 9 rfl _).trans ((A_eq m c 9).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.RunValue

end
-- ==== Proof.RefM.lean ====
/-
  The output block of the reference's LayerNorm kernel, read at block coordinates (r, c): the LayerNorm over the 64 channels of
  row r of the loaded 1024-row block, with gain and bias.  Every layout operation of the body is read at coordinates.
-/
import proofs.«126780_g2000505677692961_pallasbulk_1150_4_alg».proof.Proof.Gen.ReferenceIdeal.Skeleton
import proofs.«126780_g2000505677692961_pallasbulk_1150_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.ReferenceIdeal.PayM
open Cert.ReferenceIdeal Cert.ReferenceIdeal.Gen

/-! ## Layout operations of a row-wise normalisation, read at an index

Stated for any row count `n` and channel count `m`: the one-axis sum over the channels, the cast that keeps the
summed axis as a unit axis, and the broadcast of a column `[n, 1]` across the channels. -/

section Layout
variable {α : Type}

/-- The cast `[n] → [n, 1]` read at `(r, 0)` is the operand at `r`: both have row-major position `r`. -/
theorem shapeCast_a_a1_apply {n : ℕ} (v : (⟨1, ![n]⟩ : Shape).Idx → α)
    (h : (⟨1, ![n]⟩ : Shape).ShapeCasts ⟨2, ![n, 1]⟩) (r : Fin n) :
    shapeCast ⟨2, ![n, 1]⟩ v h (ix2 r (0 : Fin 1)) = v (ix1 r) := by
  refine shapeCast_apply v h (ix2 r (0 : Fin 1)) (ix1 r) ?_
  rw [Shape.rowMajor_val_one, Shape.rowMajor_val_two]
  show r.val = r.val * 1 + 0
  omega

/-- A column `[n, 1]` broadcast to `[n, m]` reads, at `(r, c)`, the column's entry of row `r`. -/
theorem broadcastTo_a1_ab_apply {n m : ℕ} (v : (⟨2, ![n, 1]⟩ : Shape).Idx → α)
    (h : (⟨2, ![n, 1]⟩ : Shape).Broadcasts ⟨2, ![n, m]⟩) (r : Fin n) (c : Fin m) :
    broadcastTo ⟨2, ![n, m]⟩ v h (ix2 r c) = v (ix2 r (0 : Fin 1)) := by
  refine broadcastTo_apply v h (ix2 r c) (ix2 r (0 : Fin 1)) fun ax => ?_
  match ax with
  | ⟨0, _⟩ =>
    show r.val = if n = 1 then 0 else r.val
    split
    · have := r.isLt; omega
    · rfl
  | ⟨1, _⟩ => rfl

end Layout

/-- The sum over the channel axis of an `[n, m]` block, read at row `r`, is `∑ k, src (r, k)`: the one-axis
    reduction law, its lifted index `(r, k)` written by coordinates. -/
theorem rowSum_apply {n m : ℕ} (src : FVec Ideal ⟨2, ![n, m]⟩ .f32)
    (h : (⟨2, ![n, m]⟩ : Shape).Reduces [1] ⟨1, ![n]⟩) (hφ : FKind.Formats .f32)
    (hacc : (0x00000000#32 : BitVec 32) = 0x00000000#32) (r : Fin n) :
    multiReduction (F := Ideal) .add [1] ⟨1, ![n]⟩ src 0x00000000#32 h hφ hacc (ix1 r) = ∑ k : Fin m, src (ix2 r k) := by
  refine (Ideal.multiReduction_add_single src 0x00000000#32 h hφ hacc (ix1 r)).trans ?_
  refine Finset.sum_congr rfl fun k _ => congrArg src ?_
  funext ax
  match ax with
  | ⟨0, _⟩ => rfl
  | ⟨1, _⟩ => rfl

/-! ## The three pieces of a row's normalisation, read at an index

For an `[n, m]` block `x`: the mean column, the column of summed squared deviations from a given column, and the
normalised, scaled and shifted entry. -/

section Norm
variable {n m : ℕ}

/-- The mean column at row `r`: the row's sum over its channels divided by the constant `N`. -/
theorem mean_apply (x : FVec Ideal ⟨2, ![n, m]⟩ .f32)
    (hR : (⟨2, ![n, m]⟩ : Shape).Reduces [1] ⟨1, ![n]⟩) (hφ : FKind.Formats .f32)
    (hacc : (0x00000000#32 : BitVec 32) = 0x00000000#32)
    (hC : (⟨1, ![n]⟩ : Shape).ShapeCasts ⟨2, ![n, 1]⟩) (N : BitVec 32) (r : Fin n) :
    divf (shapeCast ⟨2, ![n, 1]⟩ (multiReduction (F := Ideal) .add [1] ⟨1, ![n]⟩ x 0x00000000#32 hR hφ hacc) hC)
        (broadcast ⟨2, ![n, 1]⟩ (Scalar.ofBits .f32 N : Ideal .f32)) (ix2 r (0 : Fin 1))
      = Ideal.div (∑ k : Fin m, x (ix2 r k)) (Ideal.ofBits .f32 N) :=
  congrArg (fun t => Ideal.div t (Ideal.ofBits .f32 N))
    ((shapeCast_a_a1_apply _ hC r).trans (rowSum_apply x hR hφ hacc r))

/-- The summed squared deviations of row `r` from the column `mu`: `∑ k, (x (r, k) − mu r)²`, the column read
    through its broadcast across the channels. -/
theorem sqdev_apply (x : FVec Ideal ⟨2, ![n, m]⟩ .f32) (mu : FVec Ideal ⟨2, ![n, 1]⟩ .f32)
    (hB : (⟨2, ![n, 1]⟩ : Shape).Broadcasts ⟨2, ![n, m]⟩)
    (hR : (⟨2, ![n, m]⟩ : Shape).Reduces [1] ⟨1, ![n]⟩) (hφ : FKind.Formats .f32)
    (hacc : (0x00000000#32 : BitVec 32) = 0x00000000#32)
    (hC : (⟨1, ![n]⟩ : Shape).ShapeCasts ⟨2, ![n, 1]⟩) (r : Fin n) :
    shapeCast ⟨2, ![n, 1]⟩ (multiReduction (F := Ideal) .add [1] ⟨1, ![n]⟩
        (mulf (subf x (broadcastTo ⟨2, ![n, m]⟩ mu hB)) (subf x (broadcastTo ⟨2, ![n, m]⟩ mu hB)))
        0x00000000#32 hR hφ hacc) hC (ix2 r (0 : Fin 1))
      = ∑ k : Fin m, (x (ix2 r k) - mu (ix2 r (0 : Fin 1))) * (x (ix2 r k) - mu (ix2 r (0 : Fin 1))) := by
  refine ((shapeCast_a_a1_apply _ hC r).trans (rowSum_apply _ hR hφ hacc r)).trans ?_
  refine Finset.sum_congr rfl fun k _ => ?_
  show (x (ix2 r k) - broadcastTo ⟨2, ![n, m]⟩ mu hB (ix2 r k))
      * (x (ix2 r k) - broadcastTo ⟨2, ![n, m]⟩ mu hB (ix2 r k)) = _
  rw [broadcastTo_a1_ab_apply mu hB r k]

/-- The normalised entry `(r, c)`: the deviation from the mean column times the reciprocal square root of the
    variance column (`V / Nv`) plus the offset `E`, times the gain row at `c`, plus the bias row at `c`. -/
theorem affine_apply (x : FVec Ideal ⟨2, ![n, m]⟩ .f32) (mu V Nv : FVec Ideal ⟨2, ![n, 1]⟩ .f32)
    (g b : FVec Ideal ⟨2, ![1, m]⟩ .f32)
    (hB : (⟨2, ![n, 1]⟩ : Shape).Broadcasts ⟨2, ![n, m]⟩)
    (hG : (⟨2, ![1, m]⟩ : Shape).Broadcasts ⟨2, ![n, m]⟩) (E : BitVec 32) (r : Fin n) (c : Fin m) :
    addf (mulf (mulf (subf x (broadcastTo ⟨2, ![n, m]⟩ mu hB))
            (broadcastTo ⟨2, ![n, m]⟩
              (rsqrt (addf (divf V Nv) (broadcast ⟨2, ![n, 1]⟩ (Scalar.ofBits .f32 E : Ideal .f32)))) hB))
          (broadcastTo ⟨2, ![n, m]⟩ g hG)) (broadcastTo ⟨2, ![n, m]⟩ b hG) (ix2 r c)
      = ((x (ix2 r c) - mu (ix2 r (0 : Fin 1)))
            * Ideal.rsqrt (Ideal.div (V (ix2 r (0 : Fin 1))) (Nv (ix2 r (0 : Fin 1))) + Ideal.ofBits .f32 E))
          * g (ix2 (0 : Fin 1) c) + b (ix2 (0 : Fin 1) c) := by
  show ((x (ix2 r c) - broadcastTo ⟨2, ![n, m]⟩ mu hB (ix2 r c))
          * broadcastTo ⟨2, ![n, m]⟩
              (rsqrt (addf (divf V Nv) (broadcast ⟨2, ![n, 1]⟩ (Scalar.ofBits .f32 E : Ideal .f32)))) hB (ix2 r c))
        * broadcastTo ⟨2, ![n, m]⟩ g hG (ix2 r c) + broadcastTo ⟨2, ![n, m]⟩ b hG (ix2 r c) = _
  rw [broadcastTo_a1_ab_apply mu hB r c, broadcastTo_a1_ab_apply _ hB r c, broadcastTo_1b_ab_apply g hG r c,
    broadcastTo_1b_ab_apply b hG r c]
  rfl

end Norm

/-! ## The reference's payload at an index -/

/-- Entry `(r, c)` of the stored block is entry `c` of the LayerNorm of row `r`, with gain `x1` and bias `x2`:
    the identity cast is dropped, then the entry is read through the scale-and-shift, and the variance column and
    the mean column through their sums over the 64 channels. -/
theorem payM_apply (x0 : Vec Ideal S1024x64 .f32) (x1 x2 : Vec Ideal S1x64 .f32) (r : Fin 1024) (c : Fin 64) :
    k1_pay1 x0 x1 x2 (ix2 r c) = Cert.Spec.lnorm Cert.Spec.n64 (fun k => x0 (ix2 r k)) (x1 (ix2 0 c)) (x2 (ix2 0 c)) c := by
  unfold k1_pay1
  rw [shapeCast_self x0 _]
  refine (affine_apply x0 _ _ _ x1 x2 _ _ _ r c).trans ?_
  rw [sqdev_apply x0 _ _ _ _ _ _ r, mean_apply x0 _ _ _ _ _ r]
  rfl

end Cert.ReferenceIdeal.PayM

end
-- ==== Proof.RefZ.lean ====
/-
  The output block of the reference's z kernel, read at block coordinates (p, q, c): the LayerNorm over the 128 channels of the
  pair's row of z plus the projection in three parts — the sines of d · eₖ against one weight block, the cosines against the
  other, d against one weight row — plus the bias, the scales eₖ loaded from a table.  Every layout operation of the body is
  read at coordinates; each product is a sum over its 8 columns.
-/
import proofs.«126780_g2000505677692961_pallasbulk_1150_4_alg».proof.Proof.Gen.ReferenceIdeal.Skeleton
import proofs.«126780_g2000505677692961_pallasbulk_1150_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.ReferenceIdeal.PayZ
open Cert.ReferenceIdeal Cert.ReferenceIdeal.Gen

/-! ## The layout operations of the block, read at coordinates -/

section Layout
variable {α : Type}

/-- Row p·256 + q of a [4096, ·] matrix: the row of the pair (p, q). -/
def row (p : Fin 16) (q : Fin 256) : Fin 4096 := ⟨p.val * 256 + q.val, by have := p.isLt; have := q.isLt; omega⟩

/-- The keepdims cast [16, 256] → [16, 256, 1] reads, at (p, q, 0), the operand at (p, q). -/
theorem cast_keep (v : S16x256.Idx → α) (h : S16x256.ShapeCasts S16x256x1) (p : Fin 16) (q : Fin 256) (u : Fin 1) :
    shapeCast S16x256x1 v h (ix3 p q u) = v (ix2 p q) :=
  shapeCast_apply v h _ _ (by
    have hu : u.val = 0 := by omega
    rw [Shape.rowMajor_val_three, Shape.rowMajor_val_two]
    show p.val * 256 + q.val = (p.val * 256 + q.val) * 1 + u.val
    omega)

/-- A [16, 256, 1] column broadcast along the last axis to [16, 256, 128] reads, at (p, q, c), the operand at (p, q, 0). -/
theorem bcast_col128 (v : S16x256x1.Idx → α) (h : S16x256x1.Broadcasts S16x256x128) (p : Fin 16) (q : Fin 256) (c : Fin 128) :
    broadcastTo S16x256x128 v h (ix3 p q c) = v (ix3 p q (0 : Fin 1)) := by
  refine broadcastTo_apply v h (ix3 p q c) (ix3 p q (0 : Fin 1)) fun ax => ?_
  match ax with
  | ⟨0, _⟩ => rfl
  | ⟨1, _⟩ => rfl
  | ⟨2, _⟩ => rfl

/-- The same column broadcast to [16, 256, 8]. -/
theorem bcast_col8 (v : S16x256x1.Idx → α) (h : S16x256x1.Broadcasts S16x256x8) (p : Fin 16) (q : Fin 256) (k : Fin 8) :
    broadcastTo S16x256x8 v h (ix3 p q k) = v (ix3 p q (0 : Fin 1)) := by
  refine broadcastTo_apply v h (ix3 p q k) (ix3 p q (0 : Fin 1)) fun ax => ?_
  match ax with
  | ⟨0, _⟩ => rfl
  | ⟨1, _⟩ => rfl
  | ⟨2, _⟩ => rfl

/-- A [1, 1, 128] row broadcast to [16, 256, 128] reads, at (p, q, c), the operand at (0, 0, c). -/
theorem bcast_row128 (v : S1x1x128.Idx → α) (h : S1x1x128.Broadcasts S16x256x128) (p : Fin 16) (q : Fin 256) (c : Fin 128) :
    broadcastTo S16x256x128 v h (ix3 p q c) = v (ix3 (0 : Fin 1) (0 : Fin 1) c) := by
  refine broadcastTo_apply v h (ix3 p q c) (ix3 (0 : Fin 1) (0 : Fin 1) c) fun ax => ?_
  match ax with
  | ⟨0, _⟩ => rfl
  | ⟨1, _⟩ => rfl
  | ⟨2, _⟩ => rfl

/-- A [1, 1, 8] row broadcast to [16, 256, 8] reads, at (p, q, k), the operand at (0, 0, k). -/
theorem bcast_row8 (v : S1x1x8.Idx → α) (h : S1x1x8.Broadcasts S16x256x8) (p : Fin 16) (q : Fin 256) (k : Fin 8) :
    broadcastTo S16x256x8 v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ => rfl

/-- The rows of a [16, 256, 8] array laid out as [4096, 8]: row p·256 + q is (p, q). -/
theorem cast_rows8 (v : S16x256x8.Idx → α) (h : S16x256x8.ShapeCasts S4096x8) (p : Fin 16) (q : Fin 256) (k : Fin 8) :
    shapeCast S4096x8 v h (ix2 (row p q) k) = v (ix3 p q k) :=
  shapeCast_apply v h _ _ (by
    rw [Shape.rowMajor_val_three, Shape.rowMajor_val_two]
    rfl)

/-- A [4096, 128] matrix laid out as [16, 256, 128]: entry (p, q, c) is row p·256 + q, column c. -/
theorem cast_rows128 (v : S4096x128.Idx → α) (h : S4096x128.ShapeCasts S16x256x128) (p : Fin 16) (q : Fin 256) (c : Fin 128) :
    shapeCast S16x256x128 v h (ix3 p q c) = v (ix2 (row p q) c) :=
  shapeCast_apply v h _ _ (by
    rw [Shape.rowMajor_val_three, Shape.rowMajor_val_two]
    rfl)

/-- Column i of a [16, 3] array cut out as a [16, 1] column reads, at (p, 0), the operand at (p, i). -/
theorem slice_col (i : Nat) (v : S16x3.Idx → α) (h : S16x3.Slices ![0, i] S16x1) (p : Fin 16) (k : Fin 3) (hk : k.val = i) :
    extractStridedSlice S16x1 ![0, i] v h (ix2 p (0 : Fin 1)) = v (ix2 p k) :=
  slice2_axis1_apply i v h p (0 : Fin 1) k (by rw [hk]; rfl)

theorem slice_col0 (v : S16x3.Idx → α) (h : S16x3.Slices ![0, 0] S16x1) (p : Fin 16) :
    extractStridedSlice S16x1 ![0, 0] v h (ix2 p (0 : Fin 1)) = v (ix2 p (0 : Fin 3)) := slice_col 0 v h p 0 rfl
theorem slice_col1 (v : S16x3.Idx → α) (h : S16x3.Slices ![0, 1] S16x1) (p : Fin 16) :
    extractStridedSlice S16x1 ![0, 1] v h (ix2 p (0 : Fin 1)) = v (ix2 p (1 : Fin 3)) := slice_col 1 v h p 1 rfl
theorem slice_col2 (v : S16x3.Idx → α) (h : S16x3.Slices ![0, 2] S16x1) (p : Fin 16) :
    extractStridedSlice S16x1 ![0, 2] v h (ix2 p (0 : Fin 1)) = v (ix2 p (2 : Fin 3)) := slice_col 2 v h p 2 rfl

/-- Row i of a [3, 256] array cut out as a [1, 256] row reads, at (0, q), the operand at (i, q). -/
theorem slice_row (i : Nat) (v : S3x256.Idx → α) (h : S3x256.Slices ![i, 0] S1x256) (q : Fin 256) (k : Fin 3) (hk : k.val = i) :
    extractStridedSlice S1x256 ![i, 0] v h (ix2 (0 : Fin 1) q) = v (ix2 k q) :=
  slice2_axis0_apply i v h (0 : Fin 1) q k (by rw [hk]; rfl)

theorem slice_row0 (v : S3x256.Idx → α) (h : S3x256.Slices ![0, 0] S1x256) (q : Fin 256) :
    extractStridedSlice S1x256 ![0, 0] v h (ix2 (0 : Fin 1) q) = v (ix2 (0 : Fin 3) q) := slice_row 0 v h q 0 rfl
theorem slice_row1 (v : S3x256.Idx → α) (h : S3x256.Slices ![1, 0] S1x256) (q : Fin 256) :
    extractStridedSlice S1x256 ![1, 0] v h (ix2 (0 : Fin 1) q) = v (ix2 (1 : Fin 3) q) := slice_row 1 v h q 1 rfl
theorem slice_row2 (v : S3x256.Idx → α) (h : S3x256.Slices ![2, 0] S1x256) (q : Fin 256) :
    extractStridedSlice S1x256 ![2, 0] v h (ix2 (0 : Fin 1) q) = v (ix2 (2 : Fin 3) q) := slice_row 2 v h q 2 rfl

/-- A [16, 1] column broadcast to [16, 256] reads, at (p, q), the operand at (p, 0). -/
theorem bcast_col256 (v : S16x1.Idx → α) (h : S16x1.Broadcasts S16x256) (p : Fin 16) (q : Fin 256) :
    broadcastTo S16x256 v h (ix2 p q) = v (ix2 p (0 : Fin 1)) := by
  refine broadcastTo_apply v h (ix2 p q) (ix2 p (0 : Fin 1)) fun ax => ?_
  match ax with
  | ⟨0, _⟩ => rfl
  | ⟨1, _⟩ => rfl

end Layout

/-! ## The pointwise functions at an index, over the extended reals -/

section Pointwise
variable {s : Shape} {φ : FTy}
/-- A square root at an index is the extended reals' square root of the element … -/
theorem sqrt_apply (a : FVec Ideal s φ) (i : s.Idx) : sqrt a i = Ideal.sqrt (a i) := rfl
/-- … a reciprocal square root likewise … -/
theorem rsqrt_apply (a : FVec Ideal s φ) (i : s.Idx) : rsqrt a i = Ideal.rsqrt (a i) := rfl
/-- … a sine … -/
theorem sin_apply (a : FVec Ideal s φ) (i : s.Idx) : sin a i = Ideal.sin (a i) := rfl
/-- … and a cosine. -/
theorem cos_apply (a : FVec Ideal s φ) (i : s.Idx) : cos a i = Ideal.cos (a i) := rfl
end Pointwise

/-! ## The channel sum and the two products -/

/-- An add-reduction of a [16, 256, 128] array over its last axis, read at (p, q): the sum over that axis. -/
theorem sum_last (v : FVec Ideal S16x256x128 .f32) (h : S16x256x128.Reduces [2] S16x256) (hφ : FKind.Formats .f32)
    (hacc : (0x00000000#32 : BitVec 32) = 0x00000000#32) (p : Fin 16) (q : Fin 256) :
    multiReduction (F := Ideal) .add [2] S16x256 v 0x00000000#32 h hφ hacc (ix2 p q) = ∑ k : Fin 128, v (ix3 p q k) := by
  refine (Ideal.multiReduction_add_single v 0x00000000#32 h hφ hacc (ix2 p q)).trans ?_
  refine Finset.sum_congr rfl fun k _ => congrArg v ?_
  funext ax
  match ax with
  | ⟨0, _⟩ => rfl
  | ⟨1, _⟩ => rfl
  | ⟨2, _⟩ => rfl

/-- The left operand's index of the [4096, 8] × [8, 128] product on its row axis is the output's row. -/
theorem lhs_axis0 (j : S4096x128.Idx) (k : dot_S4096x8_S8x128_S4096x128_1_0_0_1_n_n.contr.Idx) :
    (dot_S4096x8_S8x128_S4096x128_1_0_0_1_n_n.lhsIdx j k 0).val = (j 0).val := by
  simp [DotDims.lhsIdx, dot_S4096x8_S8x128_S4096x128_1_0_0_1_n_n]
  rfl

/-- On its contracted axis it is the contraction's coordinate. -/
theorem lhs_axis1 (j : S4096x128.Idx) (k : dot_S4096x8_S8x128_S4096x128_1_0_0_1_n_n.contr.Idx) :
    (dot_S4096x8_S8x128_S4096x128_1_0_0_1_n_n.lhsIdx j k 1).val = (k ⟨0, by decide⟩).val :=
  DotDims.lhsIdx_val_of_single _ rfl j k

/-- The right operand's index on its contracted axis is the contraction's coordinate. -/
theorem rhs_axis0 (j : S4096x128.Idx) (k : dot_S4096x8_S8x128_S4096x128_1_0_0_1_n_n.contr.Idx) :
    (dot_S4096x8_S8x128_S4096x128_1_0_0_1_n_n.rhsIdx j k 0).val = (k ⟨0, by decide⟩).val :=
  DotDims.rhsIdx_val_of_single _ rfl j k

/-- On its column axis it is the output's column. -/
theorem rhs_axis1 (j : S4096x128.Idx) (k : dot_S4096x8_S8x128_S4096x128_1_0_0_1_n_n.contr.Idx) :
    (dot_S4096x8_S8x128_S4096x128_1_0_0_1_n_n.rhsIdx j k 1).val = (j 1).val := by
  simp [DotDims.rhsIdx, dot_S4096x8_S8x128_S4096x128_1_0_0_1_n_n]
  rfl

/-- The [4096, 8] × [8, 128] product from a zero accumulator, read at (r, c): the sum over the eight contracted positions. -/
theorem mm_apply (A : FVec Ideal S4096x8 .f32) (B : FVec Ideal S8x128 .f32) (prec : Option ContractPrecision) (r : Fin 4096) (c : Fin 128) :
    matmul dot_S4096x8_S8x128_S4096x128_1_0_0_1_n_n prec A B (constant (F := Ideal) S4096x128 .f32 0x00000000#32) (ix2 r c)
      = ∑ k : Fin 8, A (ix2 r k) * B (ix2 k c) := by
  show FloatOps.matmul _ prec A B _ (ix2 r c) = _
  rw [Ideal.matmul_constant_zero_apply,
    ← Equiv.sum_comp (contrEquiv1 dot_S4096x8_S8x128_S4096x128_1_0_0_1_n_n 8 rfl rfl).symm]
  refine Finset.sum_congr rfl fun k _ => ?_
  have ck := contrEquiv1_symm_val dot_S4096x8_S8x128_S4096x128_1_0_0_1_n_n 8 rfl rfl k
  have hl : dot_S4096x8_S8x128_S4096x128_1_0_0_1_n_n.lhsIdx (ix2 r c)
      ((contrEquiv1 dot_S4096x8_S8x128_S4096x128_1_0_0_1_n_n 8 rfl rfl).symm k) = ix2 r k := by
    funext ax; apply Fin.ext
    match ax with
    | ⟨0, _⟩ => exact lhs_axis0 _ _
    | ⟨1, _⟩ => exact (lhs_axis1 _ _).trans ck
  have hr : dot_S4096x8_S8x128_S4096x128_1_0_0_1_n_n.rhsIdx (ix2 r c)
      ((contrEquiv1 dot_S4096x8_S8x128_S4096x128_1_0_0_1_n_n 8 rfl rfl).symm k) = ix2 k c := by
    funext ax; apply Fin.ext
    match ax with
    | ⟨0, _⟩ => exact (rhs_axis0 _ _).trans ck
    | ⟨1, _⟩ => exact rhs_axis1 _ _
  rw [hl, hr]

/-! ## The three pieces of the block -/

/-- The distance block at (p, q, 0): the distance between point p of the first array and point q of the second. -/
theorem dist_apply (x0 : Vec Ideal S16x3 .f32) (x1 : Vec Ideal S3x256 .f32) (p : Fin 16) (q : Fin 256) (u : Fin 1) :
    k0_pay2 x0 x1 (ix3 p q u)
      = Cert.Spec.dist (x0 (ix2 p 0)) (x0 (ix2 p 1)) (x0 (ix2 p 2)) (x1 (ix2 0 q)) (x1 (ix2 1 q)) (x1 (ix2 2 q)) := by
  unfold k0_pay2
  simp only [shapeCast_self, cast_keep, sqrt_apply, addf_apply, mulf_apply, subf_apply, bcast_col256,
    broadcastTo_1b_ab_apply, slice_col0, slice_col1, slice_col2, slice_row0, slice_row1, slice_row2]
  rfl

/-- The two products at (p, q, c): the sines of the scaled distance against column c of the first weight block plus
    the cosines against column c of the second, the scales read from row 0 of the table. -/
theorem prod_apply (x0 : Vec Ideal S16x3 .f32) (x1 : Vec Ideal S3x256 .f32) (x6 : Vec Ideal S1x8 .f32)
    (x2 x3 : Vec Ideal S8x128 .f32) (p : Fin 16) (q : Fin 256) (c : Fin 128) :
    k0_pay3 x0 x1 x6 x2 x3 (ix3 p q c)
      = (∑ k : Fin 8, Ideal.sin (Cert.Spec.dist (x0 (ix2 p 0)) (x0 (ix2 p 1)) (x0 (ix2 p 2)) (x1 (ix2 0 q)) (x1 (ix2 1 q)) (x1 (ix2 2 q))
            * x6 (ix2 0 k)) * x2 (ix2 k c))
        + (∑ k : Fin 8, Ideal.cos (Cert.Spec.dist (x0 (ix2 p 0)) (x0 (ix2 p 1)) (x0 (ix2 p 2)) (x1 (ix2 0 q)) (x1 (ix2 1 q)) (x1 (ix2 2 q))
            * x6 (ix2 0 k)) * x3 (ix2 k c)) := by
  unfold k0_pay3
  simp only [cast_rows128, addf_apply, mm_apply, shapeCast_self, cast_rows8, sin_apply, cos_apply, mulf_apply,
    bcast_col8, bcast_row8, shapeCast_ab_1ab_apply, dist_apply]

/-! ## The block -/

/-- The z-output block at (p, q, c): the LayerNorm of the pair's row of channels at channel c, plus the projection of the
    distance's features in three parts, plus the bias. -/
theorem payZ_apply (x0 : Vec Ideal S16x3 .f32) (x1 : Vec Ideal S3x256 .f32) (x2 x3 : Vec Ideal S8x128 .f32)
    (x4 x5 x7 x8 : Vec Ideal S1x128 .f32) (x6 : Vec Ideal S1x8 .f32) (x9 : Vec Ideal S16x256x128 .f32) (p : Fin 16) (q : Fin 256) (c : Fin 128) :
    k0_pay1 (k0_pay2 x0 x1) (k0_pay3 x0 x1 x6 x2 x3) x4 x5 x9 x7 x8 (ix3 p q c)
      = Cert.Spec.zSplit (x0 (ix2 p 0)) (x0 (ix2 p 1)) (x0 (ix2 p 2)) (x1 (ix2 0 q)) (x1 (ix2 1 q)) (x1 (ix2 2 q))
          (fun k => x6 (ix2 0 k)) (fun k => x2 (ix2 k c)) (fun k => x3 (ix2 k c)) (x4 (ix2 0 c)) (x5 (ix2 0 c)) (x7 (ix2 0 c)) (x8 (ix2 0 c))
          (fun k => x9 (ix3 p q k)) c := by
  unfold k0_pay1
  simp only [addf_apply, mulf_apply, subf_apply, divf_apply, rsqrt_apply, broadcast_apply, bcast_col128, bcast_row128,
    shapeCast_ab_1ab_apply, shapeCast_self, cast_keep, dist_apply, prod_apply]
  rw [sum_last, sum_last]
  simp only [mulf_apply, subf_apply, divf_apply, broadcast_apply, bcast_col128, cast_keep]
  rw [sum_last]
  unfold Cert.Spec.zSplit Cert.Spec.lnorm Cert.Spec.projSplit
  rfl

end Cert.ReferenceIdeal.PayZ
end
-- ==== Proof.RefValue.lean ====
/-
  The reference program's two regions, each at whatever arrays it finds.  The first region's grid point t of 16 writes rows
  16t … 16t+15 of its result from the same rows of the coordinates and of z and the whole of every other operand; the second
  region's point t of 2 writes rows 1024t … 1024t+1023 of the flattened LayerNorm of m.  The blocks tile each array, so each
  result array is one function of the region's operands.
-/
import proofs.«126780_g2000505677692961_pallasbulk_1150_4_alg».proof.Proof.Gen.ReferenceIdeal.Frame
import proofs.«126780_g2000505677692961_pallasbulk_1150_4_alg».proof.Proof.Spec
import proofs.«126780_g2000505677692961_pallasbulk_1150_4_alg».proof.Proof.RefM
import proofs.«126780_g2000505677692961_pallasbulk_1150_4_alg».proof.Proof.RefZ
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RunValue

open Cert.ReferenceIdeal Cert.ReferenceIdeal.Gen

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-! # Region 0: the LayerNorm of z plus the projected distance features, in 16 blocks of 16 residues -/

/-- The grid has 16 × 1 points; point t takes rows 16t … 16t+15 of the coordinates, of z and of the result, and the whole
    of every other operand. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 3) = t.val ∧ win0_9.index t (1 : Fin 3) = 0 ∧ win0_9.index t (2 : Fin 3) = 0
    ∧ win0_10.index t (0 : Fin 3) = t.val ∧ win0_10.index t (1 : Fin 3) = 0 ∧ win0_10.index t (2 : Fin 3) = 0 :=
  (by decide +kernel : ∀ t : Fin grid0.N, _)

theorem t0_lt (t : Fin cfg0.N) : t.val < 16 := lt_of_lt_of_eq t.isLt N_0

/-! ## The input blocks as entries of the arrays the region finds -/

theorem iblk0_0_apply (c : Dev nD) (t : Fin cfg0.N) (x : S16x3.Idx) (k : S256x3.Idx)
    (hk0 : (k 0).val = 16 * t.val + (x 0).val) (hk1 : (k 1).val = (x 1).val) :
    (iblk0 V c 0 t : Vec Ideal S16x3 .f32) x = (V c main_v1 : S256x3.Idx → Elt Ideal .f32) k := by
  have hi := idx_facts0 t
  unfold iblk0
  rw [View.read_apply]
  show V c main_v1 _ = V c main_v1 _
  refine congrArg (V c main_v1 : S256x3.Idx → Elt Ideal .f32) (funext fun a => Fin.ext ?_)
  match a with
  | ⟨0, _⟩ => show win0_0.index t 0 * 16 + 1 * (x 0).val = (k 0).val; rw [hk0]; omega
  | ⟨1, _⟩ => show win0_0.index t 1 * 3 + 1 * (x 1).val = (k 1).val; rw [hk1]; omega

theorem iblk0_1_eq (c : Dev nD) (t : Fin cfg0.N) :
    (iblk0 V c 1 t : Vec Ideal S3x256 .f32) = (V c main_v2 : S3x256.Idx → Elt Ideal .f32) := by
  have hi := idx_facts0 t
  funext x
  unfold iblk0
  rw [View.read_apply]
  show V c main_v2 _ = V c main_v2 _
  refine congrArg (V c main_v2 : S3x256.Idx → Elt Ideal .f32) (funext fun a => Fin.ext ?_)
  match a with
  | ⟨0, _⟩ => show win0_1.index t 0 * 3 + 1 * (x 0).val = (x 0).val; omega
  | ⟨1, _⟩ => show win0_1.index t 1 * 256 + 1 * (x 1).val = (x 1).val; omega

theorem iblk0_2_eq (c : Dev nD) (t : Fin cfg0.N) :
    (iblk0 V c 2 t : Vec Ideal S8x128 .f32) = (V c main_v3 : S8x128.Idx → Elt Ideal .f32) := by
  have hi := idx_facts0 t
  funext x
  unfold iblk0
  rw [View.read_apply]
  show V c main_v3 _ = V c main_v3 _
  refine congrArg (V c main_v3 : S8x128.Idx → Elt Ideal .f32) (funext fun a => Fin.ext ?_)
  match a with
  | ⟨0, _⟩ => show win0_2.index t 0 * 8 + 1 * (x 0).val = (x 0).val; omega
  | ⟨1, _⟩ => show win0_2.index t 1 * 128 + 1 * (x 1).val = (x 1).val; omega

theorem iblk0_3_eq (c : Dev nD) (t : Fin cfg0.N) :
    (iblk0 V c 3 t : Vec Ideal S8x128 .f32) = (V c main_v4 : S8x128.Idx → Elt Ideal .f32) := by
  have hi := idx_facts0 t
  funext x
  unfold iblk0
  rw [View.read_apply]
  show V c main_v4 _ = V c main_v4 _
  refine congrArg (V c main_v4 : S8x128.Idx → Elt Ideal .f32) (funext fun a => Fin.ext ?_)
  match a with
  | ⟨0, _⟩ => show win0_3.index t 0 * 8 + 1 * (x 0).val = (x 0).val; omega
  | ⟨1, _⟩ => show win0_3.index t 1 * 128 + 1 * (x 1).val = (x 1).val; omega

theorem iblk0_4_eq (c : Dev nD) (t : Fin cfg0.N) :
    (iblk0 V c 4 t : Vec Ideal S1x128 .f32) = (V c main_v5 : S1x128.Idx → Elt Ideal .f32) := by
  have hi := idx_facts0 t
  funext x
  unfold iblk0
  rw [View.read_apply]
  show V c main_v5 _ = V c main_v5 _
  refine congrArg (V c main_v5 : S1x128.Idx → Elt Ideal .f32) (funext fun a => Fin.ext ?_)
  match a with
  | ⟨0, _⟩ => show win0_4.index t 0 * 1 + 1 * (x 0).val = (x 0).val; omega
  | ⟨1, _⟩ => show win0_4.index t 1 * 128 + 1 * (x 1).val = (x 1).val; omega

theorem iblk0_5_eq (c : Dev nD) (t : Fin cfg0.N) :
    (iblk0 V c 5 t : Vec Ideal S1x128 .f32) = (V c main_arg4 : S1x128.Idx → Elt Ideal .f32) := by
  have hi := idx_facts0 t
  funext x
  unfold iblk0
  rw [View.read_apply]
  show V c main_arg4 _ = V c main_arg4 _
  refine congrArg (V c main_arg4 : S1x128.Idx → Elt Ideal .f32) (funext fun a => Fin.ext ?_)
  match a with
  | ⟨0, _⟩ => show win0_5.index t 0 * 1 + 1 * (x 0).val = (x 0).val; omega
  | ⟨1, _⟩ => show win0_5.index t 1 * 128 + 1 * (x 1).val = (x 1).val; omega

theorem iblk0_6_eq (c : Dev nD) (t : Fin cfg0.N) :
    (iblk0 V c 6 t : Vec Ideal S1x8 .f32) = (V c main_cst : S1x8.Idx → Elt Ideal .f32) := by
  have hi := idx_facts0 t
  funext x
  unfold iblk0
  rw [View.read_apply]
  show V c main_cst _ = V c main_cst _
  refine congrArg (V c main_cst : S1x8.Idx → Elt Ideal .f32) (funext fun a => Fin.ext ?_)
  match a with
  | ⟨0, _⟩ => show win0_6.index t 0 * 1 + 1 * (x 0).val = (x 0).val; omega
  | ⟨1, _⟩ => show win0_6.index t 1 * 8 + 1 * (x 1).val = (x 1).val; omega

theorem iblk0_7_eq (c : Dev nD) (t : Fin cfg0.N) :
    (iblk0 V c 7 t : Vec Ideal S1x128 .f32) = (V c main_arg5 : S1x128.Idx → Elt Ideal .f32) := by
  have hi := idx_facts0 t
  funext x
  unfold iblk0
  rw [View.read_apply]
  show V c main_arg5 _ = V c main_arg5 _
  refine congrArg (V c main_arg5 : S1x128.Idx → Elt Ideal .f32) (funext fun a => Fin.ext ?_)
  match a with
  | ⟨0, _⟩ => show win0_7.index t 0 * 1 + 1 * (x 0).val = (x 0).val; omega
  | ⟨1, _⟩ => show win0_7.index t 1 * 128 + 1 * (x 1).val = (x 1).val; omega

theorem iblk0_8_eq (c : Dev nD) (t : Fin cfg0.N) :
    (iblk0 V c 8 t : Vec Ideal S1x128 .f32) = (V c main_arg6 : S1x128.Idx → Elt Ideal .f32) := by
  have hi := idx_facts0 t
  funext x
  unfold iblk0
  rw [View.read_apply]
  show V c main_arg6 _ = V c main_arg6 _
  refine congrArg (V c main_arg6 : S1x128.Idx → Elt Ideal .f32) (funext fun a => Fin.ext ?_)
  match a with
  | ⟨0, _⟩ => show win0_8.index t 0 * 1 + 1 * (x 0).val = (x 0).val; omega
  | ⟨1, _⟩ => show win0_8.index t 1 * 128 + 1 * (x 1).val = (x 1).val; omega

theorem iblk0_9_apply (c : Dev nD) (t : Fin cfg0.N) (x : S16x256x128.Idx) (k : S256x256x128.Idx)
    (hk0 : (k 0).val = 16 * t.val + (x 0).val) (hk1 : (k 1).val = (x 1).val) (hk2 : (k 2).val = (x 2).val) :
    (iblk0 V c 9 t : Vec Ideal S16x256x128 .f32) x = (V c main_arg1 : S256x256x128.Idx → Elt Ideal .f32) k := by
  have hi := idx_facts0 t
  unfold iblk0
  rw [View.read_apply]
  show V c main_arg1 _ = V c main_arg1 _
  refine congrArg (V c main_arg1 : S256x256x128.Idx → Elt Ideal .f32) (funext fun a => Fin.ext ?_)
  match a with
  | ⟨0, _⟩ => show win0_9.index t 0 * 16 + 1 * (x 0).val = (k 0).val; rw [hk0]; omega
  | ⟨1, _⟩ => show win0_9.index t 1 * 256 + 1 * (x 1).val = (k 1).val; rw [hk1]; omega
  | ⟨2, _⟩ => show win0_9.index t 2 * 128 + 1 * (x 2).val = (k 2).val; rw [hk2]; omega

/-- Row 16t + p of the 256 residues. -/
def zrow (t : Fin cfg0.N) (p : Fin 16) : Fin 256 := ⟨16 * t.val + p.val, by have := t0_lt t; omega⟩

theorem emb0_10 (t : Fin cfg0.N) (p : Fin 16) (q : Fin 256) (c' : Fin 128) :
    ((cfg0.win 10).blk t).view.emb (ix3 p q c') = (ix3 (zrow t p) q c' : S256x256x128.Idx) := by
  have hi := idx_facts0 t
  refine funext fun a => Fin.ext ?_
  match a with
  | ⟨0, _⟩ => show win0_10.index t 0 * 16 + 1 * p.val = 16 * t.val + p.val; omega
  | ⟨1, _⟩ => show win0_10.index t 1 * 256 + 1 * q.val = q.val; omega
  | ⟨2, _⟩ => show win0_10.index t 2 * 128 + 1 * c'.val = c'.val; omega

/-! ## What the result array holds, as a function of the arrays the region finds -/

/-- The z result from the last-atom coordinates `cb` [256, 3], their transpose `cbt` [3, 256], the sine rows `ws`, the cosine
    rows `wc` and the distance row `wself` of the weights, the bias `b`, the table of scales `e`, the LayerNorm gain and bias and
    z: entry (i, j, c) is the LayerNorm of row (i, j) of z at c plus the three-part projection of the features of the distance
    between rows i and j of the coordinates onto column c of the weights. -/
def GzR (cb : S256x3.Idx → EReal) (cbt : S3x256.Idx → EReal) (ws wc : S8x128.Idx → EReal) (wself b : S1x128.Idx → EReal) (e : S1x8.Idx → EReal) (gz bz : S1x128.Idx → EReal) (z : S256x256x128.Idx → EReal) : S256x256x128.Idx → EReal := fun i => Cert.Spec.zSplit (cb (ix2 (i 0) 0)) (cb (ix2 (i 0) 1)) (cb (ix2 (i 0) 2)) (cbt (ix2 0 (i 1))) (cbt (ix2 1 (i 1))) (cbt (ix2 2 (i 1))) (fun k => e (ix2 0 k)) (fun k => ws (ix2 k (i 2))) (fun k => wc (ix2 k (i 2))) (wself (ix2 0 (i 2))) (b (ix2 0 (i 2))) (gz (ix2 0 (i 2))) (bz (ix2 0 (i 2))) (fun k => z (ix3 (i 0) (i 1) k)) (i 2)

theorem flushed0_10_eq (c : Dev nD) (t : Fin cfg0.N) :
    (dat0 V c).flushed 10 t = ((cfg0.win 10).blk t).view.read (Elt Ideal)
      (GzR (V c main_v1) (V c main_v2) (V c main_v3) (V c main_v4) (V c main_v5) (V c main_arg4) (V c main_cst)
        (V c main_arg5) (V c main_arg6) (V c main_arg1)) := by
  show (cfg0.win 10).cut (grid0.coords t) ((dat0 V c).after 10 t) = _
  rw [after0_10]
  unfold out0_10
  rw [View.canon_unit_zero hz3]
  simp only [View.ld_unit_zero (S := S16x3) hz2, View.ld_unit_zero (S := S3x256) hz2, View.ld_unit_zero (S := S1x8) hz2,
    View.ld_unit_zero (S := S8x128) hz2, View.ld_unit_zero (S := S1x128) hz2, View.ld_unit_zero (S := S16x256x128) hz3]
  funext j
  obtain ⟨p, q, c', rfl⟩ : ∃ (p : Fin 16) (q : Fin 256) (c' : Fin 128), j = ix3 p q c' := ⟨j 0, j 1, j 2, eq_ix3 j⟩
  rw [View.read_apply, emb0_10]
  refine (Cert.ReferenceIdeal.PayZ.payZ_apply (iblk0 V c 0 t) (iblk0 V c 1 t) (iblk0 V c 2 t) (iblk0 V c 3 t) (iblk0 V c 4 t) (iblk0 V c 5 t)
    (iblk0 V c 7 t) (iblk0 V c 8 t) (iblk0 V c 6 t) (iblk0 V c 9 t) p q c').trans ?_
  show _ = GzR (V c main_v1) (V c main_v2) (V c main_v3) (V c main_v4) (V c main_v5) (V c main_arg4) (V c main_cst)
    (V c main_arg5) (V c main_arg6) (V c main_arg1) (ix3 (zrow t p) q c')
  have h9 : (fun k : Fin 128 => (iblk0 V c 9 t : Vec Ideal S16x256x128 .f32) (ix3 p q k))
      = fun k => (V c main_arg1 : S256x256x128.Idx → Elt Ideal .f32) (ix3 (zrow t p) q k) :=
    funext fun k => iblk0_9_apply V c t _ _ rfl rfl rfl
  rw [h9, iblk0_1_eq, iblk0_2_eq, iblk0_3_eq, iblk0_4_eq, iblk0_5_eq, iblk0_6_eq, iblk0_7_eq, iblk0_8_eq,
    iblk0_0_apply V c t (ix2 p 0) (ix2 (zrow t p) 0) rfl rfl, iblk0_0_apply V c t (ix2 p 1) (ix2 (zrow t p) 1) rfl rfl,
    iblk0_0_apply V c t (ix2 p 2) (ix2 (zrow t p) 2) rfl rfl]
  rfl

/-! ## The blocks cover the array -/

theorem mem_blk0_10 (t : Fin cfg0.N) (i : S256x256x128.Idx) :
    i ∈ ((cfg0.win 10).blk t).view.set ↔ ∀ a : Fin 3, win0_10.index t a * S16x256x128.size a ≤ (i a).val ∧ (i a).val < win0_10.index t a * S16x256x128.size a + S16x256x128.size a := by
  show i ∈ ((View.whole main_v6).slice (win0_10.rect t)).set ↔ _
  rw [View.set_slice_whole, Rect.mem_set_unit]
  exact Iff.rfl

theorem cover0_10_arr (i : S256x256x128.Idx) : ∃ t : Fin cfg0.N, (cfg0.win 10).flush t = true ∧ i ∈ ((cfg0.win 10).blk t).view.set := by
  have hi0 : (i 0).val < 256 := (i 0).isLt
  have hi1 : (i 1).val < 256 := (i 1).isLt
  have hi2 : (i 2).val < 128 := (i 2).isLt
  let t : Fin cfg0.N := ⟨(i 0).val / 16, by rw [show cfg0.N = 16 from N_0]; omega⟩
  have ht : t.val = (i 0).val / 16 := rfl
  have hx := idx_facts0 t
  refine ⟨t, flush0_10 t, ?_⟩
  rw [mem_blk0_10]
  intro a
  match a with
  | ⟨0, _⟩ => show win0_10.index t 0 * 16 ≤ (i 0).val ∧ (i 0).val < win0_10.index t 0 * 16 + 16; omega
  | ⟨1, _⟩ => show win0_10.index t 1 * 256 ≤ (i 1).val ∧ (i 1).val < win0_10.index t 1 * 256 + 256; omega
  | ⟨2, _⟩ => show win0_10.index t 2 * 128 ≤ (i 2).val ∧ (i 2).val < win0_10.index t 2 * 128 + 128; omega

/-- The z result array after the region. -/
theorem final0_10 (c : Dev nD) : (dat0 V c).arrAt 10 cfg0.N = GzR (V c main_v1) (V c main_v2) (V c main_v3) (V c main_v4) (V c main_v5) (V c main_arg4) (V c main_cst) (V c main_arg5) (V c main_arg6) (V c main_arg1) :=
  (dat0 V c).arrAt_eq_of_cover 10 _ (fun t _ => flushed0_10_eq V c t) cover0_10_arr

/-! # Region 1: the LayerNorm of the flattened m, in two blocks of 1024 rows -/

/-- The grid has one axis of 2 points; point t takes rows 1024t … 1024t+1023 of the flattened m and of the result, and the
    whole of the gain and the bias. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem t1_lt (t : Fin cfg1.N) : t.val < 2 := lt_of_lt_of_eq t.isLt N_1

/-! ## The input blocks as entries of the arrays the region finds -/

theorem iblk1_0_apply (c : Dev nD) (t : Fin cfg1.N) (x : S1024x64.Idx) (k : S2048x64.Idx)
    (hk0 : (k 0).val = 1024 * t.val + (x 0).val) (hk1 : (k 1).val = (x 1).val) :
    (iblk1 V c 0 t : Vec Ideal S1024x64 .f32) x = (V c main_v7 : S2048x64.Idx → Elt Ideal .f32) k := by
  have hi := idx_facts1 t
  unfold iblk1
  rw [View.read_apply]
  show V c main_v7 _ = V c main_v7 _
  refine congrArg (V c main_v7 : S2048x64.Idx → Elt Ideal .f32) (funext fun a => Fin.ext ?_)
  match a with
  | ⟨0, _⟩ => show win1_0.index t 0 * 1024 + 1 * (x 0).val = (k 0).val; rw [hk0]; omega
  | ⟨1, _⟩ => show win1_0.index t 1 * 64 + 1 * (x 1).val = (k 1).val; rw [hk1]; omega

theorem iblk1_1_eq (c : Dev nD) (t : Fin cfg1.N) :
    (iblk1 V c 1 t : Vec Ideal S1x64 .f32) = (V c main_arg7 : S1x64.Idx → Elt Ideal .f32) := by
  have hi := idx_facts1 t
  funext x
  unfold iblk1
  rw [View.read_apply]
  show V c main_arg7 _ = V c main_arg7 _
  refine congrArg (V c main_arg7 : S1x64.Idx → Elt Ideal .f32) (funext fun a => Fin.ext ?_)
  match a with
  | ⟨0, _⟩ => show win1_1.index t 0 * 1 + 1 * (x 0).val = (x 0).val; omega
  | ⟨1, _⟩ => show win1_1.index t 1 * 64 + 1 * (x 1).val = (x 1).val; omega

theorem iblk1_2_eq (c : Dev nD) (t : Fin cfg1.N) :
    (iblk1 V c 2 t : Vec Ideal S1x64 .f32) = (V c main_arg8 : S1x64.Idx → Elt Ideal .f32) := by
  have hi := idx_facts1 t
  funext x
  unfold iblk1
  rw [View.read_apply]
  show V c main_arg8 _ = V c main_arg8 _
  refine congrArg (V c main_arg8 : S1x64.Idx → Elt Ideal .f32) (funext fun a => Fin.ext ?_)
  match a with
  | ⟨0, _⟩ => show win1_2.index t 0 * 1 + 1 * (x 0).val = (x 0).val; omega
  | ⟨1, _⟩ => show win1_2.index t 1 * 64 + 1 * (x 1).val = (x 1).val; omega

/-- Row 1024t + r of the 2048 flattened rows of m. -/
def mrow (t : Fin cfg1.N) (r : Fin 1024) : Fin 2048 := ⟨1024 * t.val + r.val, by have := t1_lt t; omega⟩

theorem emb1_3 (t : Fin cfg1.N) (r : Fin 1024) (c' : Fin 64) :
    ((cfg1.win 3).blk t).view.emb (ix2 r c') = (ix2 (mrow t r) c' : S2048x64.Idx) := by
  have hi := idx_facts1 t
  refine funext fun a => Fin.ext ?_
  match a with
  | ⟨0, _⟩ => show win1_3.index t 0 * 1024 + 1 * r.val = 1024 * t.val + r.val; omega
  | ⟨1, _⟩ => show win1_3.index t 1 * 64 + 1 * c'.val = c'.val; omega

/-! ## What the result array holds, as a function of the arrays the region finds -/

/-- The m result on the flattened rows: entry (r, c) is the LayerNorm of row r at c. -/
def GmR (m2 : S2048x64.Idx → EReal) (gm bm : S1x64.Idx → EReal) : S2048x64.Idx → EReal := fun i =>
  Cert.Spec.lnorm Cert.Spec.n64 (fun k => m2 (ix2 (i 0) k)) (gm (ix2 0 (i 1))) (bm (ix2 0 (i 1))) (i 1)

theorem flushed1_3_eq (c : Dev nD) (t : Fin cfg1.N) :
    (dat1 V c).flushed 3 t = ((cfg1.win 3).blk t).view.read (Elt Ideal)
      (GmR (V c main_v7) (V c main_arg7) (V c main_arg8)) := by
  show (cfg1.win 3).cut (grid1.coords t) ((dat1 V c).after 3 t) = _
  rw [after1_3]
  unfold out1_3
  rw [View.canon_unit_zero hz2]
  simp only [View.ld_unit_zero (S := S1024x64) hz2, View.ld_unit_zero (S := S1x64) hz2]
  funext j
  obtain ⟨r, c', rfl⟩ : ∃ (r : Fin 1024) (c' : Fin 64), j = ix2 r c' := ⟨j 0, j 1, eq_ix2 j⟩
  rw [View.read_apply, emb1_3]
  refine (Cert.ReferenceIdeal.PayM.payM_apply (iblk1 V c 0 t) (iblk1 V c 1 t) (iblk1 V c 2 t) r c').trans ?_
  show _ = GmR (V c main_v7) (V c main_arg7) (V c main_arg8) (ix2 (mrow t r) c')
  have h0 : (fun k : Fin 64 => (iblk1 V c 0 t : Vec Ideal S1024x64 .f32) (ix2 r k))
      = fun k => (V c main_v7 : S2048x64.Idx → Elt Ideal .f32) (ix2 (mrow t r) k) :=
    funext fun k => iblk1_0_apply V c t _ _ rfl rfl
  rw [h0, iblk1_1_eq, iblk1_2_eq]
  rfl

/-! ## The blocks cover the array -/

theorem mem_blk1_3 (t : Fin cfg1.N) (i : S2048x64.Idx) :
    i ∈ ((cfg1.win 3).blk t).view.set ↔ ∀ a : Fin 2, win1_3.index t a * S1024x64.size a ≤ (i a).val ∧ (i a).val < win1_3.index t a * S1024x64.size a + S1024x64.size a := by
  show i ∈ ((View.whole main_v8).slice (win1_3.rect t)).set ↔ _
  rw [View.set_slice_whole, Rect.mem_set_unit]
  exact Iff.rfl

theorem cover1_3_arr (i : S2048x64.Idx) : ∃ t : Fin cfg1.N, (cfg1.win 3).flush t = true ∧ i ∈ ((cfg1.win 3).blk t).view.set := by
  have hi0 : (i 0).val < 2048 := (i 0).isLt
  have hi1 : (i 1).val < 64 := (i 1).isLt
  let t : Fin cfg1.N := ⟨(i 0).val / 1024, by rw [show cfg1.N = 2 from N_1]; omega⟩
  have ht : t.val = (i 0).val / 1024 := rfl
  have hx := idx_facts1 t
  refine ⟨t, flush1_3 t, ?_⟩
  rw [mem_blk1_3]
  intro a
  match a with
  | ⟨0, _⟩ => show win1_3.index t 0 * 1024 ≤ (i 0).val ∧ (i 0).val < win1_3.index t 0 * 1024 + 1024; omega
  | ⟨1, _⟩ => show win1_3.index t 1 * 64 ≤ (i 1).val ∧ (i 1).val < win1_3.index t 1 * 64 + 64; omega

/-- The flattened m result array after the region. -/
theorem final1_3 (c : Dev nD) : (dat1 V c).arrAt 3 cfg1.N = GmR (V c main_v7) (V c main_arg7) (V c main_arg8) :=
  (dat1 V c).arrAt_eq_of_cover 3 _ (fun t _ => flushed1_3_eq V c t) cover1_3_arr

end Cert.ReferenceIdeal.RunValue

end
-- ==== Proof.SpecBridge.lean ====
import proofs.«126780_g2000505677692961_pallasbulk_1150_4_alg».proof.Proof.Spec
import Idealize.ShloMosaic.PureOps.Ideal.Laws
import Mathlib.Analysis.SpecialFunctions.Pow.Real
import Mathlib.Algebra.BigOperators.Fin
import Mathlib.Tactic.FinCases
import Mathlib.Tactic.NormNum

/-
  The one-product form of the projection equals the three-part form.

  The 17-term sum ∑ₖ feat k · w k splits as rows 0..7 (the sines), rows 8..15 (the cosines) and row 16 (the
  distance itself); addition of extended reals is commutative and associative, so no finiteness is needed.
  The scale 2⁻ᵏ computed as exp2 (0 − k) is the binary fraction the table holds at k, and at k = 0 it is 1, so
  the last feature d · 2⁰ is d.
-/

noncomputable section

namespace Cert.Spec

open Idealize.ShloMosaic

/-! ## The scales: exp2 (0 − k) is the table's binary fraction -/

/-- exp2 of zero minus a real r is the real power 2^(−r). -/
private theorem exp2_zero_sub (r : ℝ) :
    Ideal.exp2 (Ideal.ofBits .f32 0x00000000#32 - (r : EReal)) = ((Real.rpow 2 (-r) : ℝ) : EReal) := by
  rw [Ideal.ofBits_zero_f32, zero_sub, ← EReal.coe_neg, Ideal.exp2_coe]

/-- For each k < 8 the computed scale 2^(−k) and the table's word at k denote the same real: the word has a zero
    significand field and biased exponent 127 − k. -/
theorem pow2neg_eq_table (k : Fin 8) : pow2neg k = Ideal.ofBits .f32 (pow2negTable k) := by
  unfold pow2neg
  rw [exp2_zero_sub]
  fin_cases k <;> simp [pow2negTable, Ideal.ofBits, Ideal.ieee, -EReal.coe_mul] <;> norm_num

/-- The scale at k = 0 is 2⁰ = 1. -/
theorem pow2neg_zero : pow2neg 0 = 1 := by
  unfold pow2neg
  rw [exp2_zero_sub]
  simp

/-! ## The features at the three blocks of rows -/

/-- Rows 0..7 hold the sines. -/
theorem feat_lo (d : EReal) (e : Fin 8 → EReal) (i : Fin 8) :
    feat d e ⟨i.val, by omega⟩ = Ideal.sin (d * e i) := by
  unfold feat
  rw [dif_pos (show (⟨i.val, by omega⟩ : Fin 17).val < 8 from i.isLt)]

/-- Rows 8..15 hold the cosines. -/
theorem feat_hi (d : EReal) (e : Fin 8 → EReal) (i : Fin 8) :
    feat d e ⟨i.val + 8, by omega⟩ = Ideal.cos (d * e i) := by
  unfold feat
  rw [dif_neg (show ¬ (⟨i.val + 8, by omega⟩ : Fin 17).val < 8 from by simp),
    dif_pos (show (⟨i.val + 8, by omega⟩ : Fin 17).val < 16 from by have := i.isLt; simp; omega)]
  congr 3

/-- Row 16 holds the distance at scale e 0. -/
theorem feat_last (d : EReal) (e : Fin 8 → EReal) : feat d e 16 = d * e 0 := by
  unfold feat
  rw [dif_neg (by decide), dif_neg (by decide)]

/-! ## The 17-term sum as 8 + 8 + 1 -/

/-- A sum over 17 rows is the sum over rows 0..7, plus the sum over rows 8..15, plus row 16. -/
theorem sum17_split (f : Fin 17 → EReal) :
    ∑ k : Fin 17, f k
      = ((∑ i : Fin 8, f ⟨i.val, by omega⟩) + (∑ i : Fin 8, f ⟨i.val + 8, by omega⟩)) + f 16 := by
  rw [Fin.sum_univ_castSucc]
  have h := Fin.sum_univ_add (a := 8) (b := 8) (fun k : Fin (8 + 8) => f (Fin.castSucc k))
  have h1 : ∀ i : Fin 8, f (Fin.castSucc (Fin.castAdd 8 i)) = f ⟨i.val, by omega⟩ := fun i => rfl
  have h2 : ∀ i : Fin 8, f (Fin.castSucc (Fin.natAdd 8 i)) = f ⟨i.val + 8, by omega⟩ :=
    fun i => congrArg f (Fin.ext (by simp [Nat.add_comm]))
  simp only [h1, h2] at h
  rw [← h]
  rfl

/-! ## The projection and the z entry -/

/-- With any scales whose first entry is 1, the one-product projection is the three-part projection against rows
    0..7, rows 8..15 and row 16 of the weight column. -/
theorem projOne_eq_projSplit_of (d : EReal) (e : Fin 8 → EReal) (he : e 0 = 1) (w : Fin 17 → EReal) (bias : EReal) :
    projOne d e w bias
      = projSplit d e (fun k => w ⟨k.val, by omega⟩) (fun k => w ⟨k.val + 8, by omega⟩) (w 16) bias := by
  unfold projOne projSplit
  rw [sum17_split]
  simp only [feat_lo, feat_hi, feat_last, he, mul_one]

theorem projOne_eq_projSplit (d : EReal) (w : Fin 17 → EReal) (bias : EReal) :
    projOne d pow2neg w bias
      = projSplit d (fun k => Ideal.ofBits .f32 (pow2negTable k)) (fun k => w ⟨k.val, by omega⟩)
          (fun k => w ⟨k.val + 8, by omega⟩) (w 16) bias := by
  have hfun : pow2neg = fun k => Ideal.ofBits .f32 (pow2negTable k) := funext pow2neg_eq_table
  rw [projOne_eq_projSplit_of d pow2neg pow2neg_zero w bias, hfun]

theorem zOne_eq_zSplit (a0 a1 a2 b0 b1 b2 : EReal) (w : Fin 17 → EReal) (bias g bt : EReal) (row : Fin 128 → EReal)
    (c : Fin 128) :
    zOne a0 a1 a2 b0 b1 b2 w bias g bt row c
      = zSplit a0 a1 a2 b0 b1 b2 (fun k => Ideal.ofBits .f32 (pow2negTable k)) (fun k => w ⟨k.val, by omega⟩)
          (fun k => w ⟨k.val + 8, by omega⟩) (w 16) bias g bt row c := by
  unfold zOne zSplit
  rw [projOne_eq_projSplit]

end Cert.Spec

end
-- ==== Proof.RefRead.lean ====
/-
  The reference program's memory after its last operation, read at the two results and at the operands of its two regions.
  The m result is the second region's array reshaped by the host; the z result is the first region's array, which nothing
  later writes.  The first region finds the slice of atom 3 of x (and its transpose), rows 0 … 7, 8 … 15 and 16 of the
  weights, and the table of scales; the second finds m reshaped to [2048, 64]; every other operand is an argument as given.
-/
import proofs.«126780_g2000505677692961_pallasbulk_1150_4_alg».proof.Proof.Gen.ReferenceIdeal.Frame
import proofs.«126780_g2000505677692961_pallasbulk_1150_4_alg».proof.Proof.SpecArrays
import proofs.«126780_g2000505677692961_pallasbulk_1150_4_alg».proof.Proof.SpecBridge
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.ReferenceIdeal.RunRead

open Cert.ReferenceIdeal Cert.ReferenceIdeal.Gen

variable (m : (ℓ : Loc nD τ sig) → Buf (Elt Ideal) ℓ) (ρ : Dev nD → PrngReg)

/-- A list of host operations none of which writes the buffer: closes the side goal of `after_of_forall_not_mem`. -/
macro "no_write " ops:ident : tactic => `(tactic| (
  simp only [$ops:ident, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The two results at the end of @main -/

/-- The m result is the second region's array, reshaped by the host. -/
theorem W5_v9 (c : Dev nD) : W5 m ρ c (Proc.devRef .tc main_v9)
    = shapeCast S8x256x64 ((dat1 (V3 m ρ) c).arrAt 3 cfg1.N) shapeCasts_S2048x64_S8x256x64 := by
  show StableHlo.after hostOps2 (W4 m ρ c) (Proc.devRef .tc main_v9) = _
  after_results
  exact congrArg (fun v => shapeCast S8x256x64 v shapeCasts_S2048x64_S8x256x64) (W4_arr m ρ c 3)

/-- The z result is the first region's array: nothing after that region writes it. -/
theorem W5_v6 (c : Dev nD) : W5 m ρ c (Proc.devRef .tc main_v6) = (dat0 (V1 m ρ) c).arrAt 10 cfg0.N :=
  calc W5 m ρ c (Proc.devRef .tc main_v6)
    _ = W4 m ρ c (Proc.devRef .tc main_v6) := StableHlo.after_of_forall_not_mem (b := Proc.devRef .tc main_v6) _ _ (List.forall_iff_forall_mem.mp (by no_write hostOps2))
    _ = W3 m ρ c (Proc.devRef .tc main_v6) := W4_of_ne m ρ c main_v6 (by decide)
    _ = W2 m ρ c (Proc.devRef .tc main_v6) := StableHlo.after_of_forall_not_mem (b := Proc.devRef .tc main_v6) _ _ (List.forall_iff_forall_mem.mp (by no_write hostOps1))
    _ = (dat0 (V1 m ρ) c).arrAt 10 cfg0.N := W2_arr m ρ c 10

/-! ## The arrays the first region finds -/

theorem V1_v1 (c : Dev nD) : (V1 m ρ c main_v1 : S256x3.Idx → Elt Ideal .f32)
    = shapeCast S256x3 (extractStridedSlice S256x1x3 ![0, 3, 0] (m ((c : Thread nD τ).loc main_arg2)) slices_S256x4x3_S256x1x3_0_3_0) shapeCasts_S256x1x3_S256x3 := by
  show StableHlo.after hostOps0 (W0 m ρ c) (Proc.devRef .tc main_v1) = _
  after_results
  rfl

theorem V1_v2 (c : Dev nD) : (V1 m ρ c main_v2 : S3x256.Idx → Elt Ideal .f32)
    = transpose S3x256 [1, 0] (V1 m ρ c main_v1 : S256x3.Idx → Elt Ideal .f32) transposes_S256x3_S3x256_1_0 := by
  rw [V1_v1]
  show StableHlo.after hostOps0 (W0 m ρ c) (Proc.devRef .tc main_v2) = _
  after_results
  rfl

theorem V1_v3 (c : Dev nD) : (V1 m ρ c main_v3 : S8x128.Idx → Elt Ideal .f32)
    = extractStridedSlice S8x128 ![0, 0] (m ((c : Thread nD τ).loc main_arg3)) slices_S17x128_S8x128_0_0 := by
  show StableHlo.after hostOps0 (W0 m ρ c) (Proc.devRef .tc main_v3) = _
  after_results

theorem V1_v4 (c : Dev nD) : (V1 m ρ c main_v4 : S8x128.Idx → Elt Ideal .f32)
    = extractStridedSlice S8x128 ![8, 0] (m ((c : Thread nD τ).loc main_arg3)) slices_S17x128_S8x128_8_0 := by
  show StableHlo.after hostOps0 (W0 m ρ c) (Proc.devRef .tc main_v4) = _
  after_results

theorem V1_v5 (c : Dev nD) : (V1 m ρ c main_v5 : S1x128.Idx → Elt Ideal .f32)
    = extractStridedSlice S1x128 ![16, 0] (m ((c : Thread nD τ).loc main_arg3)) slices_S17x128_S1x128_16_0 := by
  show StableHlo.after hostOps0 (W0 m ρ c) (Proc.devRef .tc main_v5) = _
  after_results

theorem V1_cst (c : Dev nD) : (V1 m ρ c main_cst : S1x8.Idx → Elt Ideal .f32)
    = fun i => Ideal.ofBits .f32 (lit0 (S1x8.rowMajor i)) := by
  show StableHlo.after hostOps0 (W0 m ρ c) (Proc.devRef .tc main_cst) = _
  after_results
  rfl

theorem V1_arg1 (c : Dev nD) : V1 m ρ c main_arg1 = m ((c : Thread nD τ).loc main_arg1) :=
  StableHlo.after_of_forall_not_mem (b := Proc.devRef .tc main_arg1) _ _ (List.forall_iff_forall_mem.mp (by no_write hostOps0))
theorem V1_arg4 (c : Dev nD) : V1 m ρ c main_arg4 = m ((c : Thread nD τ).loc main_arg4) :=
  StableHlo.after_of_forall_not_mem (b := Proc.devRef .tc main_arg4) _ _ (List.forall_iff_forall_mem.mp (by no_write hostOps0))
theorem V1_arg5 (c : Dev nD) : V1 m ρ c main_arg5 = m ((c : Thread nD τ).loc main_arg5) :=
  StableHlo.after_of_forall_not_mem (b := Proc.devRef .tc main_arg5) _ _ (List.forall_iff_forall_mem.mp (by no_write hostOps0))
theorem V1_arg6 (c : Dev nD) : V1 m ρ c main_arg6 = m ((c : Thread nD τ).loc main_arg6) :=
  StableHlo.after_of_forall_not_mem (b := Proc.devRef .tc main_arg6) _ _ (List.forall_iff_forall_mem.mp (by no_write hostOps0))

/-! ## The arrays the second region finds -/

theorem W2_arg0 (c : Dev nD) : W2 m ρ c (Proc.devRef .tc main_arg0) = m ((c : Thread nD τ).loc main_arg0) :=
  (W2_of_ne m ρ c main_arg0 (by decide)).trans
    (StableHlo.after_of_forall_not_mem (b := Proc.devRef .tc main_arg0) _ _ (List.forall_iff_forall_mem.mp (by no_write hostOps0)))

theorem V3_v7 (c : Dev nD) : (V3 m ρ c main_v7 : S2048x64.Idx → Elt Ideal .f32)
    = shapeCast S2048x64 (m ((c : Thread nD τ).loc main_arg0)) shapeCasts_S8x256x64_S2048x64 := by
  rw [← W2_arg0 m ρ c]
  show StableHlo.after hostOps1 (W2 m ρ c) (Proc.devRef .tc main_v7) = _
  after_results
  rfl

theorem V3_arg7 (c : Dev nD) : V3 m ρ c main_arg7 = m ((c : Thread nD τ).loc main_arg7) :=
  calc W3 m ρ c (Proc.devRef .tc main_arg7)
    _ = W2 m ρ c (Proc.devRef .tc main_arg7) := StableHlo.after_of_forall_not_mem (b := Proc.devRef .tc main_arg7) _ _ (List.forall_iff_forall_mem.mp (by no_write hostOps1))
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by no_write hostOps0))
    _ = m ((c : Thread nD τ).loc main_arg7) := rfl

theorem V3_arg8 (c : Dev nD) : V3 m ρ c main_arg8 = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by no_write hostOps1))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by no_write hostOps0))
    _ = m ((c : Thread nD τ).loc main_arg8) := rfl

end Cert.ReferenceIdeal.RunRead

end
-- ==== Proof.RefResult.lean ====
/-
  The reference program's two results as functions of the arguments.  The first region's array is, entry by entry, the
  LayerNorm of the z row plus the three-part projection over the table of scales; with the weight blocks read as rows of w and
  the table's entries as the binary fractions 2⁻ᵏ this is the one-product form (Proof/SpecBridge.lean).  The second region's
  array, reshaped, is the LayerNorm of every row of m.
-/
import proofs.«126780_g2000505677692961_pallasbulk_1150_4_alg».proof.Proof.RefValue
import proofs.«126780_g2000505677692961_pallasbulk_1150_4_alg».proof.Proof.RefRead
import proofs.«126780_g2000505677692961_pallasbulk_1150_4_alg».proof.Proof.RefRun
import proofs.«126780_g2000505677692961_pallasbulk_1150_4_alg».proof.Proof.SpecArrays
import proofs.«126780_g2000505677692961_pallasbulk_1150_4_alg».proof.Proof.SpecBridge
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.ReferenceIdeal.RunResult

open Cert.ReferenceIdeal Cert.ReferenceIdeal.Gen Cert.ReferenceIdeal.RunRead Cert.ReferenceIdeal.RunValue

variable (m : (ℓ : Loc nD τ sig) → Buf (Elt Ideal) ℓ) (ρ : Dev nD → PrngReg)

/-! ## The first region's operands, entry by entry, from the arguments -/

/-- Row i of the coordinates is atom 3 of residue i. -/
theorem cb_apply (c : Dev nD) (i : Fin 256) (k : Fin 3) :
    (V1 m ρ c main_v1 : S256x3.Idx → Elt Ideal .f32) (ix2 i k)
      = ((m ((c : Thread nD τ).loc main_arg2)) : S256x4x3.Idx → Elt Ideal .f32) (ix3 i 3 k) := by
  rw [V1_v1]
  refine (shapeCast_apply _ _ (ix2 i k) (ix3 i 0 k : S256x1x3.Idx) ?_).trans ?_
  · rw [Shape.rowMajor_val_three, Shape.rowMajor_val_two]
    show (i.val * 1 + 0) * 3 + k.val = i.val * 3 + k.val
    omega
  · refine extractStridedSlice_apply _ _ _ _ _ fun a => ?_
    match a with
    | ⟨0, _⟩ => show i.val = 0 + i.val; omega
    | ⟨1, _⟩ => rfl
    | ⟨2, _⟩ => show k.val = 0 + k.val; omega

/-- Column j of the transposed coordinates is atom 3 of residue j. -/
theorem cbt_apply (c : Dev nD) (k : Fin 3) (j : Fin 256) :
    (V1 m ρ c main_v2 : S3x256.Idx → Elt Ideal .f32) (ix2 k j)
      = ((m ((c : Thread nD τ).loc main_arg2)) : S256x4x3.Idx → Elt Ideal .f32) (ix3 j 3 k) := by
  rw [V1_v2]
  exact (transpose_ix2_apply _ _ k j).trans (cb_apply m ρ c j k)

/-- The sine block of the weights is rows 0 … 7 of w. -/
theorem ws_apply (c : Dev nD) (k : Fin 8) (c' : Fin 128) :
    (V1 m ρ c main_v3 : S8x128.Idx → Elt Ideal .f32) (ix2 k c')
      = ((m ((c : Thread nD τ).loc main_arg3)) : S17x128.Idx → Elt Ideal .f32) (ix2 (⟨k.val, by omega⟩ : Fin 17) c') := by
  rw [V1_v3]
  refine extractStridedSlice_apply _ _ _ _ _ fun a => ?_
  match a with
  | ⟨0, _⟩ => show k.val = 0 + k.val; omega
  | ⟨1, _⟩ => show c'.val = 0 + c'.val; omega

/-- The cosine block of the weights is rows 8 … 15 of w. -/
theorem wc_apply (c : Dev nD) (k : Fin 8) (c' : Fin 128) :
    (V1 m ρ c main_v4 : S8x128.Idx → Elt Ideal .f32) (ix2 k c')
      = ((m ((c : Thread nD τ).loc main_arg3)) : S17x128.Idx → Elt Ideal .f32) (ix2 (⟨k.val + 8, by omega⟩ : Fin 17) c') := by
  rw [V1_v4]
  refine extractStridedSlice_apply _ _ _ _ _ fun a => ?_
  match a with
  | ⟨0, _⟩ => show k.val + 8 = 8 + k.val; omega
  | ⟨1, _⟩ => show c'.val = 0 + c'.val; omega

/-- The weight row of the distance itself is row 16 of w. -/
theorem wself_apply (c : Dev nD) (c' : Fin 128) :
    (V1 m ρ c main_v5 : S1x128.Idx → Elt Ideal .f32) (ix2 0 c')
      = ((m ((c : Thread nD τ).loc main_arg3)) : S17x128.Idx → Elt Ideal .f32) (ix2 16 c') := by
  rw [V1_v5]
  refine extractStridedSlice_apply _ _ _ _ _ fun a => ?_
  match a with
  | ⟨0, _⟩ => rfl
  | ⟨1, _⟩ => show c'.val = 0 + c'.val; omega

/-- The table of scales holds the eight binary fractions 2⁻ᵏ. -/
theorem e_apply (c : Dev nD) (k : Fin 8) :
    (V1 m ρ c main_cst : S1x8.Idx → Elt Ideal .f32) (ix2 0 k) = Ideal.ofBits .f32 (Cert.Spec.pow2negTable k) := by
  rw [V1_cst]
  show Ideal.ofBits .f32 (lit0 (S1x8.rowMajor (ix2 0 k))) = Ideal.ofBits .f32 (Cert.Spec.pow2negTable k)
  refine congrArg (Ideal.ofBits .f32) ?_
  fin_cases k <;> rfl

/-- Flattened row 256 s + r of m is row (s, r). -/
theorem m2_apply (c : Dev nD) (s : Fin 8) (rr : Fin 256) (k : Fin 64) (r : Fin 2048) (hr : r.val = 256 * s.val + rr.val) :
    (V3 m ρ c main_v7 : S2048x64.Idx → Elt Ideal .f32) (ix2 r k)
      = ((m ((c : Thread nD τ).loc main_arg0)) : S8x256x64.Idx → Elt Ideal .f32) (ix3 s rr k) := by
  rw [V3_v7]
  refine shapeCast_apply _ _ (ix2 r k) (ix3 s rr k : S8x256x64.Idx) ?_
  show (S8x256x64.rowMajor (ix3 s rr k)).val = (S2048x64.rowMajor (ix2 r k)).val
  rw [Shape.rowMajor_val_three, Shape.rowMajor_val_two]
  show (s.val * 256 + rr.val) * 64 + k.val = r.val * 64 + k.val
  rw [hr]; omega

/-! ## The two results as functions of the arguments -/

/-- The z result: the three-part projection over the table of scales is the one-product projection over exp2 (0 − k). -/
theorem z_eq (c : Dev nD) :
    GzR (V1 m ρ c main_v1) (V1 m ρ c main_v2) (V1 m ρ c main_v3) (V1 m ρ c main_v4) (V1 m ρ c main_v5) (V1 m ρ c main_arg4)
        (V1 m ρ c main_cst) (V1 m ρ c main_arg5) (V1 m ρ c main_arg6) (V1 m ρ c main_arg1)
      = Cert.Spec.zResult (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg1)) := by
  funext i
  obtain ⟨p, q, c', rfl⟩ : ∃ (p q : Fin 256) (c' : Fin 128), i = ix3 p q c' := ⟨i 0, i 1, i 2, eq_ix3 i⟩
  show Cert.Spec.zSplit ((V1 m ρ c main_v1 : S256x3.Idx → Elt Ideal .f32) (ix2 p 0)) ((V1 m ρ c main_v1 : S256x3.Idx → Elt Ideal .f32) (ix2 p 1))
      ((V1 m ρ c main_v1 : S256x3.Idx → Elt Ideal .f32) (ix2 p 2)) ((V1 m ρ c main_v2 : S3x256.Idx → Elt Ideal .f32) (ix2 0 q))
      ((V1 m ρ c main_v2 : S3x256.Idx → Elt Ideal .f32) (ix2 1 q)) ((V1 m ρ c main_v2 : S3x256.Idx → Elt Ideal .f32) (ix2 2 q))
      (fun k => (V1 m ρ c main_cst : S1x8.Idx → Elt Ideal .f32) (ix2 0 k))
      (fun k => (V1 m ρ c main_v3 : S8x128.Idx → Elt Ideal .f32) (ix2 k c')) (fun k => (V1 m ρ c main_v4 : S8x128.Idx → Elt Ideal .f32) (ix2 k c'))
      ((V1 m ρ c main_v5 : S1x128.Idx → Elt Ideal .f32) (ix2 0 c')) ((V1 m ρ c main_arg4 : S1x128.Idx → Elt Ideal .f32) (ix2 0 c'))
      ((V1 m ρ c main_arg5 : S1x128.Idx → Elt Ideal .f32) (ix2 0 c')) ((V1 m ρ c main_arg6 : S1x128.Idx → Elt Ideal .f32) (ix2 0 c'))
      (fun k => (V1 m ρ c main_arg1 : S256x256x128.Idx → Elt Ideal .f32) (ix3 p q k)) c'
    = Cert.Spec.zOne (((m ((c : Thread nD τ).loc main_arg2)) : S256x4x3.Idx → Elt Ideal .f32) (ix3 p 3 0)) (((m ((c : Thread nD τ).loc main_arg2)) : S256x4x3.Idx → Elt Ideal .f32) (ix3 p 3 1))
      (((m ((c : Thread nD τ).loc main_arg2)) : S256x4x3.Idx → Elt Ideal .f32) (ix3 p 3 2)) (((m ((c : Thread nD τ).loc main_arg2)) : S256x4x3.Idx → Elt Ideal .f32) (ix3 q 3 0))
      (((m ((c : Thread nD τ).loc main_arg2)) : S256x4x3.Idx → Elt Ideal .f32) (ix3 q 3 1)) (((m ((c : Thread nD τ).loc main_arg2)) : S256x4x3.Idx → Elt Ideal .f32) (ix3 q 3 2))
      (fun k => ((m ((c : Thread nD τ).loc main_arg3)) : S17x128.Idx → Elt Ideal .f32) (ix2 k c')) (((m ((c : Thread nD τ).loc main_arg4)) : S1x128.Idx → Elt Ideal .f32) (ix2 0 c'))
      (((m ((c : Thread nD τ).loc main_arg5)) : S1x128.Idx → Elt Ideal .f32) (ix2 0 c')) (((m ((c : Thread nD τ).loc main_arg6)) : S1x128.Idx → Elt Ideal .f32) (ix2 0 c'))
      (fun k => ((m ((c : Thread nD τ).loc main_arg1)) : S256x256x128.Idx → Elt Ideal .f32) (ix3 p q k)) c'
  have he : (fun k : Fin 8 => (V1 m ρ c main_cst : S1x8.Idx → Elt Ideal .f32) (ix2 0 k)) = fun k => Ideal.ofBits .f32 (Cert.Spec.pow2negTable k) :=
    funext fun k => e_apply m ρ c k
  have hs : (fun k : Fin 8 => (V1 m ρ c main_v3 : S8x128.Idx → Elt Ideal .f32) (ix2 k c'))
      = fun k => ((m ((c : Thread nD τ).loc main_arg3)) : S17x128.Idx → Elt Ideal .f32) (ix2 (⟨k.val, by omega⟩ : Fin 17) c') := funext fun k => ws_apply m ρ c k c'
  have hc : (fun k : Fin 8 => (V1 m ρ c main_v4 : S8x128.Idx → Elt Ideal .f32) (ix2 k c'))
      = fun k => ((m ((c : Thread nD τ).loc main_arg3)) : S17x128.Idx → Elt Ideal .f32) (ix2 (⟨k.val + 8, by omega⟩ : Fin 17) c') := funext fun k => wc_apply m ρ c k c'
  rw [Cert.Spec.zOne_eq_zSplit, he, hs, hc, wself_apply, cb_apply, cb_apply, cb_apply, cbt_apply, cbt_apply, cbt_apply,
    V1_arg4, V1_arg5, V1_arg6, V1_arg1]

/-- The m result, reshaped back to [8, 256, 64]. -/
theorem m_eq (c : Dev nD) :
    shapeCast S8x256x64 (GmR (V3 m ρ c main_v7) (V3 m ρ c main_arg7) (V3 m ρ c main_arg8)) shapeCasts_S2048x64_S8x256x64
      = Cert.Spec.mResult (m ((c : Thread nD τ).loc main_arg0)) (m ((c : Thread nD τ).loc main_arg7)) (m ((c : Thread nD τ).loc main_arg8)) := by
  funext i
  obtain ⟨s, rr, k, rfl⟩ : ∃ (s : Fin 8) (rr : Fin 256) (k : Fin 64), i = ix3 s rr k := ⟨i 0, i 1, i 2, eq_ix3 i⟩
  have hlt : 256 * s.val + rr.val < 2048 := by have := s.isLt; have := rr.isLt; omega
  refine (shapeCast_apply _ _ (ix3 s rr k) (ix2 (⟨256 * s.val + rr.val, hlt⟩ : Fin 2048) k : S2048x64.Idx) ?_).trans ?_
  · rw [Shape.rowMajor_val_three, Shape.rowMajor_val_two]
    show (256 * s.val + rr.val) * 64 + k.val = (s.val * 256 + rr.val) * 64 + k.val
    omega
  · have h : (fun k' : Fin 64 => (V3 m ρ c main_v7 : S2048x64.Idx → Elt Ideal .f32) (ix2 (⟨256 * s.val + rr.val, hlt⟩ : Fin 2048) k'))
        = fun k' => ((m ((c : Thread nD τ).loc main_arg0)) : S8x256x64.Idx → Elt Ideal .f32) (ix3 s rr k') :=
      funext fun k' => m2_apply m ρ c s rr k' _ rfl
    show Cert.Spec.lnorm Cert.Spec.n64 (fun k' => (V3 m ρ c main_v7 : S2048x64.Idx → Elt Ideal .f32) (ix2 (⟨256 * s.val + rr.val, hlt⟩ : Fin 2048) k'))
      ((V3 m ρ c main_arg7 : S1x64.Idx → Elt Ideal .f32) (ix2 0 k)) ((V3 m ρ c main_arg8 : S1x64.Idx → Elt Ideal .f32) (ix2 0 k)) k = _
    rw [h, V3_arg7, V3_arg8]
    rfl

/-! ## The run, read -/

/-- Every weakly fair execution of the program ends with the two results at `mResult` and `zResult` of the arguments, the
    arguments unchanged. -/
theorem run : θ_run defs (onTc (τ := τ) (main (F := Ideal))) ⟨m, fun _ => 0, ρ⟩ fun r => ∀ c : Dev nD,
      r.2.mem ((c.tc : Thread nD τ).loc main_v9) = Cert.Spec.mResult (m ((c : Thread nD τ).loc main_arg0)) (m ((c : Thread nD τ).loc main_arg7)) (m ((c : Thread nD τ).loc main_arg8))
      ∧ r.2.mem ((c.tc : Thread nD τ).loc main_v6) = Cert.Spec.zResult (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    ⟨(h c main_v9 (by decide)).trans ((W5_v9 m ρ c).trans
        ((congrArg (fun v => shapeCast S8x256x64 v shapeCasts_S2048x64_S8x256x64) (final1_3 (V3 m ρ) c)).trans (m_eq m ρ c))),
      (h c main_v6 (by decide)).trans ((W5_v6 m ρ c).trans ((final0_10 (V1 m ρ) c).trans (z_eq m ρ c))),
      (h c main_arg0 (by decide)).trans (W5_main_arg0 m ρ c),
      (h c main_arg1 (by decide)).trans (W5_main_arg1 m ρ c),
      (h c main_arg2 (by decide)).trans (W5_main_arg2 m ρ c),
      (h c main_arg3 (by decide)).trans (W5_main_arg3 m ρ c),
      (h c main_arg4 (by decide)).trans (W5_main_arg4 m ρ c),
      (h c main_arg5 (by decide)).trans (W5_main_arg5 m ρ c),
      (h c main_arg6 (by decide)).trans (W5_main_arg6 m ρ c),
      (h c main_arg7 (by decide)).trans (W5_main_arg7 m ρ c),
      (h c main_arg8 (by decide)).trans (W5_main_arg8 m ρ c)⟩)
    (Cert.ReferenceIdeal.GenRun.run_all m ρ)

end Cert.ReferenceIdeal.RunResult

end
-- ==== Proof.lean ====
/-
  A recycling embedder: from a pair representation z [256, 256, 128], an alignment representation m [8, 256, 64] and atom
  coordinates x [256, 4, 3] it returns LayerNorm (m) · gm + bm and, for every residue pair (i, j),
  LayerNorm (z[i, j, :]) · gz + bz + Linear ([sin (d · 2⁻ᵏ), cos (d · 2⁻ᵏ), d]), d the distance between the last atoms of
  residues i and j, k = 0 … 7.

  The kernel program does it in ONE launch over 16 row slabs: each step normalizes 16 rows of z and 128 rows of the
  flattened m, forms all 17 features of its 16 × 256 distances, with the scales 2⁻ᵏ computed as exp2 (0 − k), and takes ONE
  product with the 17 × 128 weights.  The reference program launches two kernels — the z update over the same 16 slabs, with
  the sine and cosine blocks multiplied separately against rows 0 … 7 and 8 … 15 of the weights, the distance against row
  16, and the scales read from a table of binary fractions; and the LayerNorm of m over two slabs of 1024 rows.

  Over the extended reals both programs end with the same two arrays (Proof/SpecArrays.lean: `mResult`, `zResult`):
    * LayerNorm is computed row by row by the same operations in every tiling (Proof/Spec.lean `lnorm`);
    * the 17-term sum splits as 8 + 8 + 1 by commutativity and associativity of addition alone, d · exp2 (0 − 0) = d, and
      exp2 (0 − k) is exactly the k-th table entry (Proof/SpecBridge.lean);
  no distributive law is used, so the finiteness of the inputs is not needed.
  Each program's result arrays are read off its run block by block (Proof/KernelValue.lean; Proof/RefValue.lean,
  Proof/RefRead.lean, Proof/RefResult.lean over the run of Proof/RefRun.lean), each block's entries from the kernel bodies'
  arithmetic (Proof/KernelZ.lean, Proof/KernelM.lean, Proof/RefZ.lean, Proof/RefM.lean).
  The idealization rewrote nothing, so `preserves` has nothing to state.
-/
import proofs.«126780_g2000505677692961_pallasbulk_1150_4_alg».proof.Defs
import proofs.«126780_g2000505677692961_pallasbulk_1150_4_alg».proof.Proof.Gen.Kernel
import proofs.«126780_g2000505677692961_pallasbulk_1150_4_alg».proof.Proof.Gen.Kernel.Frame
import proofs.«126780_g2000505677692961_pallasbulk_1150_4_alg».proof.Proof.Gen.KernelIdeal
import proofs.«126780_g2000505677692961_pallasbulk_1150_4_alg».proof.Proof.Gen.KernelIdeal.Frame
import proofs.«126780_g2000505677692961_pallasbulk_1150_4_alg».proof.Proof.Gen.ReferenceIdeal
import proofs.«126780_g2000505677692961_pallasbulk_1150_4_alg».proof.Proof.Gen.ReferenceIdeal.Frame
import proofs.«126780_g2000505677692961_pallasbulk_1150_4_alg».proof.Proof.Gen.Pre_finite_inputs
import proofs.«126780_g2000505677692961_pallasbulk_1150_4_alg».proof.Proof.SpecArrays
import proofs.«126780_g2000505677692961_pallasbulk_1150_4_alg».proof.Proof.KernelValue
import proofs.«126780_g2000505677692961_pallasbulk_1150_4_alg».proof.Proof.RefResult
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- And the reference program. -/
theorem frame_referenceIdeal : Cert.frame_ReferenceIdeal := fun m ρ _ => Cert.ReferenceIdeal.Gen.frame m ρ

/-- From memories that agree on the nine arguments both programs end with the m result at `mResult` and the z result at
    `zResult` of those arguments. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ?_) (Cert.ReferenceIdeal.RunResult.run m' ρ')
  obtain ⟨a0, a1, a2, a3, a4, a5, a6, a7, a8⟩ := hagree c
  refine ⟨(h c).1.trans ?_, (h c).2.1.trans ?_, (h c).2.2⟩
  · rw [a0, a7, a8]
  · rw [a1, a2, a3, a4, a5, a6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
